-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S1340x128 : Shape := ⟨2, ![1340, 128]⟩
abbrev S128x256 : Shape := ⟨2, ![128, 256]⟩
abbrev S256 : Shape := ⟨1, ![256]⟩
abbrev S256x41 : Shape := ⟨2, ![256, 41]⟩
abbrev S41 : Shape := ⟨1, ![41]⟩
abbrev S_ : Shape := ⟨0, ![]⟩

class Facts : Prop where
  bcast_S_S1340x128 : S_.BroadcastsInDim S1340x128 (![] : Fin 0 → Fin S1340x128.rank)
  reducesTo_S1340x128_S_d0_1 : S1340x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x41 : S_.BroadcastsInDim S256x41 (![] : Fin 0 → Fin S256x41.rank)
  reducesTo_S256x41_S_d0_1 : S256x41.ReducesTo [0, 1] S_
  bcast_S_S41 : S_.BroadcastsInDim S41 (![] : Fin 0 → Fin S41.rank)
  reducesTo_S41_S_d0 : S41.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg0 : IVec S50000 32) (main_arg7 : FVec F S41 .f32) (main_v13 : IVec S_ 1) (main_v16 : IVec S256x41 1) : IVec S_ 1 :=
  let main_c_5 : IVec S_ 1 := constantI S_ 1 1#1
  let main_v17 : IVec S_ 1 := (fun x v => Host.reduce IntOp.andi x v reducesTo_S256x41_S_d0_1 h_S_) main_v16 main_c_5
  let main_v18 : IVec S_ 1 := andi main_v13 main_v17
  let main_v19 : FVec F S41 .f32 := Host.absf main_arg7
  let main_cst_6 : FVec F S_ .f32 := constant S_ .f32 0x7F800000#32
  let main_v20 : FVec F S41 .f32 := broadcastInDim S41 ![] bcast_S_S41 main_cst_6
  let main_v21 : IVec S41 1 := cmpf .olt main_v19 main_v20
  let main_c_7 : IVec S_ 1 := constantI S_ 1 1#1
  let main_v22 : IVec S_ 1 := (fun x v => Host.reduce IntOp.andi x v reducesTo_S41_S_d0 h_S_) main_v21 main_c_7
  let main_v23 : IVec S_ 1 := andi main_v18 main_v22
  let main_c_8 : IVec S_ 32 := constantI S_ 32 0#32
  let main_v24 : IVec S50000 32 := broadcastInDim S50000 ![] bcast_S_S50000 main_c_8
  let main_v25 : IVec S50000 1 := cmpi .sge main_arg0 main_v24
  let main_c_9 : IVec S_ 32 := constantI S_ 32 1340#32
  let main_v26 : IVec S50000 32 := broadcastInDim S50000 ![] bcast_S_S50000 main_c_9
  let main_v27 : IVec S50000 1 := cmpi .slt main_arg0 main_v26
  let main_v28 : IVec S50000 1 := andi main_v25 main_v27
  let main_c_10 : IVec S_ 1 := constantI S_ 1 1#1
  let main_v29 : IVec S_ 1 := (fun x v => Host.reduce IntOp.andi x v reducesTo_S50000_S_d0 h_S_) main_v28 main_c_10
  let main_v30 : IVec S_ 1 := andi main_v23 main_v29
  main_v30

def fn {F : FTy → Type} [FloatOps F] (main_arg0 : IVec S50000 32) (main_arg1 : IVec S2x800000 32) (main_arg2 : IVec S50000 32) (main_arg3 : FVec F S1340x128 .f32) (main_arg4 : FVec F S128x256 .f32) (main_arg5 : FVec F S256 .f32) (main_arg6 : FVec F S256x41 .f32) (main_arg7 : FVec F S41 .f32) : IVec S_ 1 :=
  let main_v0 : FVec F S1340x128 .f32 := Host.absf main_arg3
  let main_cst : FVec F S_ .f32 := constant S_ .f32 0x7F800000#32
  let main_v1 : FVec F S1340x128 .f32 := broadcastInDim S1340x128 ![] bcast_S_S1340x128 main_cst
  let main_v2 : IVec S1340x128 1 := cmpf .olt main_v0 main_v1
  let main_c : IVec S_ 1 := constantI S_ 1 1#1
  let main_v3 : IVec S_ 1 := (fun x v => Host.reduce IntOp.andi x v reducesTo_S1340x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x41 .f32 := Host.absf main_arg6
  let main_cst_4 : FVec F S_ .f32 := constant S_ .f32 0x7F800000#32
  let main_v15 : FVec F S256x41 .f32 := broadcastInDim S256x41 ![] bcast_S_S256x41 main_cst_4
  let main_v16 : IVec S256x41 1 := cmpf .olt main_v14 main_v15
  fn_part1 (F := F) main_arg0 main_arg7 main_v13 main_v16
-- ==== Kernel.lean ====
abbrev S50000 : Shape := ⟨1, ![50000]⟩
abbrev S2x800000 : Shape := ⟨2, ![2, 800000]⟩
abbrev S1340x128 : Shape := ⟨2, ![1340, 128]⟩
abbrev S128x256 : Shape := ⟨2, ![128, 256]⟩
abbrev S256 : Shape := ⟨1, ![256]⟩
abbrev S256x41 : Shape := ⟨2, ![256, 41]⟩
abbrev S41 : Shape := ⟨1, ![41]⟩
abbrev S_ : Shape := ⟨0, ![]⟩
abbrev S1408x128 : Shape := ⟨2, ![1408, 128]⟩
abbrev S50000x1 : Shape := ⟨2, ![50000, 1]⟩
abbrev S50000x256 : Shape := ⟨2, ![50000, 256]⟩
abbrev S2000x1 : Shape := ⟨2, ![2000, 1]⟩
abbrev S2000x256 : Shape := ⟨2, ![2000, 256]⟩
abbrev S1x1408 : Shape := ⟨2, ![1, 1408]⟩
abbrev S2000x1408 : Shape := ⟨2, ![2000, 1408]⟩
abbrev S2000x128 : Shape := ⟨2, ![2000, 128]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x256 : Shape := ⟨2, ![850000, 256]⟩
abbrev S1x256 : Shape := ⟨2, ![1, 256]⟩
abbrev S50000x41 : Shape := ⟨2, ![50000, 41]⟩
abbrev S2000x41 : Shape := ⟨2, ![2000, 41]⟩
abbrev S850000x41 : Shape := ⟨2, ![850000, 41]⟩
abbrev S1x41 : Shape := ⟨2, ![1, 41]⟩
abbrev S512x41 : Shape := ⟨2, ![512, 41]⟩
abbrev S1x512 : Shape := ⟨2, ![1, 512]⟩
abbrev S2000x512 : Shape := ⟨2, ![2000, 512]⟩

abbrev nBuf : Space → Nat
  | .hbm => 102
  | .vmem => 17
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S1340x128, .f32⟩
  | .hbm, ⟨4, _⟩ => ⟨S128x256, .f32⟩
  | .hbm, ⟨5, _⟩ => ⟨S256, .f32⟩
  | .hbm, ⟨6, _⟩ => ⟨S256x41, .f32⟩
  | .hbm, ⟨7, _⟩ => ⟨S41, .f32⟩
  | .hbm, ⟨8, _⟩ => ⟨S_, .i32⟩
  | .hbm, ⟨9, _⟩ => ⟨S_, .f32⟩
  | .hbm, ⟨10, _⟩ => ⟨S1408x128, .f32⟩
  | .hbm, ⟨11, _⟩ => ⟨S1408x128, .bf16⟩
  | .hbm, ⟨12, _⟩ => ⟨S128x256, .bf16⟩
  | .hbm, ⟨13, _⟩ => ⟨S256x41, .bf16⟩
  | .hbm, ⟨14, _⟩ => ⟨S50000x1, .i32⟩
  | .hbm, ⟨15, _⟩ => ⟨S50000x256, .f32⟩
  | .hbm, ⟨16, _⟩ => ⟨S50000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S1x800000, .i32⟩
  | .hbm, ⟨21, _⟩ => ⟨S800000, .i32⟩
  | .hbm, ⟨22, _⟩ => ⟨S850000, .i32⟩
  | .hbm, ⟨23, _⟩ => ⟨S_, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000, .f32⟩
  | .hbm, ⟨62, _⟩ => ⟨S850000, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x256, .f32⟩
  | .hbm, ⟨72, _⟩ => ⟨S850000x1, .f32⟩
  | .hbm, ⟨73, _⟩ => ⟨S850000x256, .f32⟩
  | .hbm, ⟨74, _⟩ => ⟨S850000x256, .f32⟩
  | .hbm, ⟨75, _⟩ => ⟨S_, .f32⟩
  | .hbm, ⟨76, _⟩ => ⟨S50000x256, .f32⟩
  | .hbm, ⟨77, _⟩ => ⟨S850000x1, .i32⟩
  | .hbm, ⟨78, _⟩ => ⟨S50000x256, .f32⟩
  | .hbm, ⟨79, _⟩ => ⟨S1x256, .f32⟩
  | .hbm, ⟨80, _⟩ => ⟨S50000x41, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x41, .f32⟩
  | .hbm, ⟨90, _⟩ => ⟨S850000x1, .f32⟩
  | .hbm, ⟨91, _⟩ => ⟨S850000x41, .f32⟩
  | .hbm, ⟨92, _⟩ => ⟨S850000x41, .f32⟩
  | .hbm, ⟨93, _⟩ => ⟨S_, .f32⟩
  | .hbm, ⟨94, _⟩ => ⟨S50000x41, .f32⟩
  | .hbm, ⟨95, _⟩ => ⟨S850000x1, .i32⟩
  | .hbm, ⟨96, _⟩ => ⟨S50000x41, .f32⟩
  | .hbm, ⟨97, _⟩ => ⟨S1x41, .f32⟩
  | .hbm, ⟨98, _⟩ => ⟨S50000x41, .f32⟩
  | .hbm, ⟨99, _⟩ => ⟨S50000x41, .f32⟩
  | .hbm, ⟨100, _⟩ => ⟨S50000x1, .i32⟩
  | .hbm, ⟨101, _⟩ => ⟨S512x41, .f32⟩
  | .local _ .vmem, ⟨0, _⟩ => ⟨S2000x1, .i32⟩
  | .local _ .vmem, ⟨1, _⟩ => ⟨S2000x1, .i32⟩
  | .local _ .vmem, ⟨2, _⟩ => ⟨S1408x128, .bf16⟩
  | .local _ .vmem, ⟨3, _⟩ => ⟨S128x256, .bf16⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S256x41, .bf16⟩
  | .local _ .vmem, ⟨10, _⟩ => ⟨S2000x41, .f32⟩
  | .local _ .vmem, ⟨11, _⟩ => ⟨S2000x41, .f32⟩
  | .local _ .vmem, ⟨12, _⟩ => ⟨S2000x1, .i32⟩
  | .local _ .vmem, ⟨13, _⟩ => ⟨S2000x1, .i32⟩
  | .local _ .vmem, ⟨14, _⟩ => ⟨S2000x41, .f32⟩
  | .local _ .vmem, ⟨15, _⟩ => ⟨S2000x41, .f32⟩
  | .local _ .vmem, ⟨16, _⟩ => ⟨S512x41, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_c_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x41 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x41 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x41 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x41 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  pads_S1340x128_S1408x128_0680_000 : S1340x128.Pads (![0, 0] : Fin 2 → Nat) ![68, 0] ![0, 0] S1408x128
  h_S_ : 0 < S_.numel
  bitsLt_bf16_f32 : FTy.bits .bf16 < FTy.bits .f32
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x1408_d1_w32 : S1x1408.Iotas .tc 32 [1]
  broadcasts_S2000x1_S2000x1408 : S2000x1.Broadcasts S2000x1408
  broadcasts_S1x1408_S2000x1408 : S1x1408.Broadcasts S2000x1408
  natLt_1_32 : 1 < 32
  inb_S1408x128_S1408x128_0_0 : ∀ a, (![0, 0] : Fin 2 → Nat) a + S1408x128.size a ≤ S1408x128.size a
  h_S1408x128 : 0 < S1408x128.numel
  shapeCasts_S1408x128_S1408x128 : S1408x128.ShapeCasts S1408x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x41_S256x41_0_0 : ∀ a, (![0, 0] : Fin 2 → Nat) a + S256x41.size a ≤ S256x41.size a
  h_S256x41 : 0 < S256x41.numel
  shapeCasts_S256x41_S256x41 : S256x41.ShapeCasts S256x41
  inb_S2000x41_S2000x41_0_0 : ∀ a, (![0, 0] : Fin 2 → Nat) a + S2000x41.size a ≤ S2000x41.size a
  h_S2000x41 : 0 < S2000x41.numel
  bcast_S850000x1_S850000x41_0_1 : S850000x1.BroadcastsInDim S850000x41 (![0, 1] : Fin 2 → Fin S850000x41.rank)
  bcast_S_S50000x41 : S_.BroadcastsInDim S50000x41 (![] : Fin 0 → Fin S50000x41.rank)
  bcast_S41_S1x41_1 : S41.BroadcastsInDim S1x41 (![1] : Fin 1 → Fin S1x41.rank)
  bcast_S1x41_S50000x41_0_1 : S1x41.BroadcastsInDim S50000x41 (![0, 1] : Fin 2 → Fin S50000x41.rank)
  inb_S512x41_S512x41_0_0 : ∀ a, (![0, 0] : Fin 2 → Nat) a + S512x41.size a ≤ S512x41.size a
  h_S512x41 : 0 < S512x41.numel
  iota_S1x512_d1_w32 : S1x512.Iotas .tc 32 [1]
  broadcasts_S2000x1_S2000x512 : S2000x1.Broadcasts S2000x512
  broadcasts_S1x512_S2000x512 : S1x512.Broadcasts S2000x512
  shapeCasts_S2000x41_S2000x41 : S2000x41.ShapeCasts S2000x41
  shapeCasts_S512x41_S512x41 : S512x41.ShapeCasts S512x41
  dot_S2000x1408_S1408x128_S2000x128_1_0_0_1_n_n_wf : DotDims.WF S2000x1408 S1408x128 S2000x128 [1] [0] [0] [1] [] []
  dot_S2000x128_S128x256_S2000x256_1_0_0_1_n_n_wf : DotDims.WF S2000x128 S128x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x41_S2000x41_1_0_0_1_n_n_wf : DotDims.WF S2000x256 S256x41 S2000x41 [1] [0] [0] [1] [] []
  gather_S50000x41_S850000x1_S850000x41_1_0_n_n_0_1_141_wf : GatherDims.WF S50000x41 S850000x1 S850000x41 [1] [0] [] [0] [] 1 ![1, 41]
  scatter_S50000x41_S850000x1_S850000x41_1_0_0_1_wf : ScatterDims.WF S50000x41 S850000x1 S850000x41 [1] [0] [0] 1
  dot_S2000x512_S2000x41_S512x41_0_0_1_1_n_n_wf : DotDims.WF S2000x512 S2000x41 S512x41 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .i32 = 32 ∨ (Rect.block (s := S50000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1408x128.size a ≤ S1408x128.size a
  hwx0_1 : ∀ i : grid0.Coords, EltTy.bits .bf16 = 32 ∨ (Rect.block (s := S1408x128) S1408x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x41.size a ≤ S256x41.size a
  hwx1_2 : ∀ i : grid1.Coords, EltTy.bits .bf16 = 32 ∨ (Rect.block (s := S256x41) S256x41.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x41.size a ≤ S50000x41.size a
  hwx1_3 : ∀ i : grid1.Coords, EltTy.bits .f32 = 32 ∨ (Rect.block (s := S50000x41) S2000x41.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S50000x1.size a
  hwx2_0 : ∀ i : grid2.Coords, EltTy.bits .i32 = 32 ∨ (Rect.block (s := S50000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x41.size a ≤ S50000x41.size a
  hwx2_1 : ∀ i : grid2.Coords, EltTy.bits .f32 = 32 ∨ (Rect.block (s := S50000x41) S2000x41.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x41.size a ≤ S512x41.size a
  hwx2_2 : ∀ i : grid2.Coords, EltTy.bits .f32 = 32 ∨ (Rect.block (s := S512x41) S512x41.size (cc2_transform_2 i) (hinb2_2 i)).WholeWords (EltTy.packing .f32)

variable [Facts₀]

def dot_S2000x1408_S1408x128_S2000x128_1_0_0_1_n_n : DotDims S2000x1408 S1408x128 S2000x128 where
  lhsContracting := [1]
  rhsContracting := [0]
  lhsNonContracting := [0]
  rhsNonContracting := [1]
  lhsBatch := []
  rhsBatch := []
  wf := dot_S2000x1408_S1408x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x41_S2000x41_1_0_0_1_n_n : DotDims S2000x256 S256x41 S2000x41 where
  lhsContracting := [1]
  rhsContracting := [0]
  lhsNonContracting := [0]
  rhsNonContracting := [1]
  lhsBatch := []
  rhsBatch := []
  wf := dot_S2000x256_S256x41_S2000x41_1_0_0_1_n_n_wf
def gather_S50000x41_S850000x1_S850000x41_1_0_n_n_0_1_141 : GatherDims S50000x41 S850000x1 S850000x41 where
  offsetDims := [1]
  collapsedSliceDims := [0]
  operandBatchingDims := []
  startIndicesBatchingDims := []
  startIndexMap := [0]
  indexVectorDim := 1
  sliceSizes := ![1, 41]
  wf := gather_S50000x41_S850000x1_S850000x41_1_0_n_n_0_1_141_wf
def scatter_S50000x41_S850000x1_S850000x41_1_0_0_1 : ScatterDims S50000x41 S850000x1 S850000x41 where
  updateWindowDims := [1]
  insertedWindowDims := [0]
  scatterDimsToOperandDims := [0]
  indexVectorDim := 1
  wf := scatter_S50000x41_S850000x1_S850000x41_1_0_0_1_wf
def dot_S2000x512_S2000x41_S512x41_0_0_1_1_n_n : DotDims S2000x512 S2000x41 S512x41 where
  lhsContracting := [0]
  rhsContracting := [0]
  lhsNonContracting := [1]
  rhsNonContracting := [1]
  lhsBatch := []
  rhsBatch := []
  wf := dot_S2000x512_S2000x41_S512x41_0_0_1_1_n_n_wf

abbrev win0_0 : Pipeline.Window sig grid0 :=
  Pipeline.Window.ofSpec (Memref.whole main_v4) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1408x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S256x41.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S2000x41.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S2000x41.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71) S512x41.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000 : Shape := ⟨1, ![50000]⟩
abbrev S2x800000 : Shape := ⟨2, ![2, 800000]⟩
abbrev S1340x128 : Shape := ⟨2, ![1340, 128]⟩
abbrev S128x256 : Shape := ⟨2, ![128, 256]⟩
abbrev S256 : Shape := ⟨1, ![256]⟩
abbrev S256x41 : Shape := ⟨2, ![256, 41]⟩
abbrev S41 : Shape := ⟨1, ![41]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x1 : Shape := ⟨2, ![50000, 1]⟩
abbrev S50000x128 : Shape := ⟨2, ![50000, 128]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x41 : Shape := ⟨2, ![50000, 41]⟩
abbrev S850000x41 : Shape := ⟨2, ![850000, 41]⟩
abbrev S1x41 : Shape := ⟨2, ![1, 41]⟩
abbrev S512x41 : Shape := ⟨2, ![512, 41]⟩

abbrev nBuf : Space → Nat
  | .hbm => 151
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S1340x128, .f32⟩
  | 4 => ⟨S128x256, .f32⟩
  | 5 => ⟨S256, .f32⟩
  | 6 => ⟨S256x41, .f32⟩
  | 7 => ⟨S41, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .i32⟩
  | 16 => ⟨S50000, .i32⟩
  | 17 => ⟨S50000, .i1⟩
  | 18 => ⟨S_, .i32⟩
  | 19 => ⟨S50000, .i32⟩
  | 20 => ⟨S50000, .i32⟩
  | 21 => ⟨S50000, .i32⟩
  | 22 => ⟨S50000x1, .i32⟩
  | 23 => ⟨S50000x128, .f32⟩
  | 24 => ⟨S_, .f32⟩
  | 25 => ⟨S850000, .f32⟩
  | 26 => ⟨S_, .f32⟩
  | 27 => ⟨S50000, .f32⟩
  | 28 => ⟨S850000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .i1⟩
  | 36 => ⟨S_, .f32⟩
  | 37 => ⟨S_, .f32⟩
  | 38 => ⟨S50000, .f32⟩
  | 39 => ⟨S50000, .f32⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S50000x256, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x256, .f32⟩
  | 74 => ⟨S850000x1, .f32⟩
  | 75 => ⟨S850000x256, .f32⟩
  | 76 => ⟨S850000x256, .f32⟩
  | 77 => ⟨S_, .f32⟩
  | 78 => ⟨S50000x256, .f32⟩
  | 79 => ⟨S850000x1, .i32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S_, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S_, .f32⟩
  | 97 => ⟨S50000, .f32⟩
  | 98 => ⟨S50000, .i1⟩
  | 99 => ⟨S_, .f32⟩
  | 100 => ⟨S_, .f32⟩
  | 101 => ⟨S50000, .f32⟩
  | 102 => ⟨S50000, .f32⟩
  | 103 => ⟨S50000, .f32⟩
  | 104 => ⟨S_, .f32⟩
  | 105 => ⟨S_, .f32⟩
  | 106 => ⟨S50000, .f32⟩
  | 107 => ⟨S50000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S850000, .f32⟩
  | 127 => ⟨S50000x41, .f32⟩
  | _ => ⟨S50000, .i32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x41, .f32⟩
  | 9 => ⟨S850000x1, .f32⟩
  | 10 => ⟨S850000x41, .f32⟩
  | 11 => ⟨S850000x41, .f32⟩
  | 12 => ⟨S_, .f32⟩
  | 13 => ⟨S50000x41, .f32⟩
  | 14 => ⟨S850000x1, .i32⟩
  | 15 => ⟨S50000x41, .f32⟩
  | 16 => ⟨S1x41, .f32⟩
  | 17 => ⟨S50000x41, .f32⟩
  | 18 => ⟨S50000x41, .f32⟩
  | 19 => ⟨S_, .f32⟩
  | 20 => ⟨S512x41, .f32⟩
  | 21 => ⟨S50000x1, .i32⟩
  | 22 => ⟨S512x41, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call2_cst : Ref sig .tc := ⟨.hbm, 84, rfl⟩
abbrev main_call2_v0 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_v63 : Ref sig .tc := ⟨.hbm, 95, rfl⟩
abbrev main_cst_16 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_call3_v0 : Ref sig .tc := ⟨.hbm, 100, rfl⟩
abbrev main_call3_v1 : Ref sig .tc := ⟨.hbm, 101, rfl⟩
abbrev main_v66 : Ref sig .tc := ⟨.hbm, 102, rfl⟩
abbrev main_v67 : Ref sig .tc := ⟨.hbm, 103, rfl⟩
abbrev main_cst_18 : Ref sig .tc := ⟨.hbm, 104, rfl⟩
abbrev main_call4_v0 : Ref sig .tc := ⟨.hbm, 105, rfl⟩
abbrev main_call4_v1 : Ref sig .tc := ⟨.hbm, 106, rfl⟩
abbrev main_v68 : Ref sig .tc := ⟨.hbm, 107, rfl⟩
abbrev main_c_19 : Ref sig .tc := ⟨.hbm, 108, rfl⟩
abbrev main_v69 : Ref sig .tc := ⟨.hbm, 109, rfl⟩
abbrev main_v70 : Ref sig .tc := ⟨.hbm, 110, rfl⟩
abbrev main_c_20 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_21 : Ref sig .tc := ⟨.hbm, 117, rfl⟩
abbrev main_v76 : Ref sig .tc := ⟨.hbm, 118, rfl⟩
abbrev main_v77 : Ref sig .tc := ⟨.hbm, 119, rfl⟩
abbrev main_c_22 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_23 : Ref sig .tc := ⟨.hbm, 128, rfl⟩
abbrev main_v85 : Ref sig .tc := ⟨.hbm, 129, rfl⟩
abbrev main_v86 : Ref sig .tc := ⟨.hbm, 130, rfl⟩
abbrev main_c_24 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_25 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_26 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S50000_S50000x1_0 : S50000.BroadcastsInDim S50000x1 (![0] : Fin 1 → Fin S50000x1.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x41_0_1 : S850000x1.BroadcastsInDim S850000x41 (![0, 1] : Fin 2 → Fin S850000x41.rank)
  bcast_S_S50000x41 : S_.BroadcastsInDim S50000x41 (![] : Fin 0 → Fin S50000x41.rank)
  bcast_S41_S1x41_1 : S41.BroadcastsInDim S1x41 (![1] : Fin 1 → Fin S1x41.rank)
  bcast_S1x41_S50000x41_0_1 : S1x41.BroadcastsInDim S50000x41 (![0, 1] : Fin 2 → Fin S50000x41.rank)
  bcast_S_S512x41 : S_.BroadcastsInDim S512x41 (![] : Fin 0 → Fin S512x41.rank)
  gather_S1340x128_S50000x1_S50000x128_1_0_n_n_0_1_1128_wf : GatherDims.WF S1340x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x41_S50000x41_1_0_0_1_n_n_wf : DotDims.WF S50000x256 S256x41 S50000x41 [1] [0] [0] [1] [] []
  gather_S50000x41_S850000x1_S850000x41_1_0_n_n_0_1_141_wf : GatherDims.WF S50000x41 S850000x1 S850000x41 [1] [0] [] [0] [] 1 ![1, 41]
  scatter_S50000x41_S850000x1_S850000x41_1_0_0_1_wf : ScatterDims.WF S50000x41 S850000x1 S850000x41 [1] [0] [0] 1
  scatter_S512x41_S50000x1_S50000x41_1_0_0_1_wf : ScatterDims.WF S512x41 S50000x1 S50000x41 [1] [0] [0] 1

variable [Facts₀]

def gather_S1340x128_S50000x1_S50000x128_1_0_n_n_0_1_1128 : GatherDims S1340x128 S50000x1 S50000x128 where
  offsetDims := [1]
  collapsedSliceDims := [0]
  operandBatchingDims := []
  startIndicesBatchingDims := []
  startIndexMap := [0]
  indexVectorDim := 1
  sliceSizes := ![1, 128]
  wf := gather_S1340x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x41_S50000x41_1_0_0_1_n_n : DotDims S50000x256 S256x41 S50000x41 where
  lhsContracting := [1]
  rhsContracting := [0]
  lhsNonContracting := [0]
  rhsNonContracting := [1]
  lhsBatch := []
  rhsBatch := []
  wf := dot_S50000x256_S256x41_S50000x41_1_0_0_1_n_n_wf
def gather_S50000x41_S850000x1_S850000x41_1_0_n_n_0_1_141 : GatherDims S50000x41 S850000x1 S850000x41 where
  offsetDims := [1]
  collapsedSliceDims := [0]
  operandBatchingDims := []
  startIndicesBatchingDims := []
  startIndexMap := [0]
  indexVectorDim := 1
  sliceSizes := ![1, 41]
  wf := gather_S50000x41_S850000x1_S850000x41_1_0_n_n_0_1_141_wf
def scatter_S50000x41_S850000x1_S850000x41_1_0_0_1 : ScatterDims S50000x41 S850000x1 S850000x41 where
  updateWindowDims := [1]
  insertedWindowDims := [0]
  scatterDimsToOperandDims := [0]
  indexVectorDim := 1
  wf := scatter_S50000x41_S850000x1_S850000x41_1_0_0_1_wf
def scatter_S512x41_S50000x1_S50000x41_1_0_0_1 : ScatterDims S512x41 S50000x1 S50000x41 where
  updateWindowDims := [1]
  insertedWindowDims := [0]
  scatterDimsToOperandDims := [0]
  indexVectorDim := 1
  wf := scatter_S512x41_S50000x1_S50000x41_1_0_0_1_wf

class Facts : Prop extends Facts₀ where

variable [Facts]
-- ==== Proof.PreRange.lean ====
/-
  What the precondition says of the integer input `x_ids`: every index word, read signed, lies in `[0, 1340)`.
-/
import proofs.«408785_j66949950210691_1_alg».proof.Pre_finite_inputs
import proofs.«408785_j66949950210691_1_alg».proof.Proof.Gen.Pre_finite_inputs
import Idealize.ShloMosaic.Lib.ReduceAll
import Idealize.ShloMosaic.Lib.Affine
import Idealize.ShloMosaic.Lib.ValueIdx

noncomputable section

namespace Cert.Proof.PreRange

open Idealize.ShloMosaic Cert.Pre_finite_inputs Cert.Pre_finite_inputs.Gen

instance : Subsingleton S_.Idx := ⟨fun a b => funext fun d => d.elim0⟩

/-- The precondition is a conjunction whose last conjunct is `all (0 ≤ x_ids ∧ x_ids < 1340)`: where it holds, each
    index word of `x_ids` is non-negative and below the table's `1340` rows, read as a signed integer. -/
theorem ids_in_range {F : FTy → Type} [FloatOps F] (a0 : IVec S50000 32) (a1 : IVec S2x800000 32) (a2 : IVec S50000 32)
    (a3 : FVec F S1340x128 .f32) (a4 : FVec F S128x256 .f32) (a5 : FVec F S256 .f32) (a6 : FVec F S256x41 .f32)
    (a7 : FVec F S41 .f32) (h : fn (F := F) a0 a1 a2 a3 a4 a5 a6 a7 = fun _ => 1#1) (n : S50000.Idx) :
    0 ≤ (a0 n).toInt ∧ (a0 n).toInt < 1340 := by
  have h0 := congrFun h ValueIdx.ix0
  dsimp only [fn, fn_part1] at h0
  obtain ⟨-, hall⟩ := IntOp.andi_eq_one.1 h0
  have hn := Host.reduce_andi_all _ _ _ _ _ hall n
  obtain ⟨hge, hlt⟩ := IntOp.andi_eq_one.1 hn
  have hge' := IntOp.cmpi_sge.1 hge
  have hlt' := IntOp.cmpi_slt.1 hlt
  refine ⟨?_, ?_⟩
  · have e : (broadcastInDim S50000 ![] bcast_S_S50000 (constantI S_ 32 0#32) n : BitVec 32) = 0#32 := rfl
    rw [e] at hge'
    simpa using hge'
  · have e : (broadcastInDim S50000 ![] bcast_S_S50000 (constantI S_ 32 1340#32) n : BitVec 32) = 1340#32 := rfl
    rw [e] at hlt'
    have : (1340#32 : BitVec 32).toInt = 1340 := by decide
    rw [this] at hlt'
    exact hlt'

end Cert.Proof.PreRange

end
-- ==== Proof.ChainHost.lean ====
/-
  The host operations of the kernel's program between its three regions, read as values.

  Between the regions the kernel's program applies the same graph operations as the reference: the edge list with
  self loops (`src`, `dst`), the symmetric normalisation `norm = dinv[src] · dinv[dst]` from the in-degrees, and per
  layer a gather of the transformed features along `src`, a scaling by `norm` and a scatter-add along `dst`.  Each
  boundary buffer of the kernel's program is identified here with the reference's stage of the same name of the
  edge list alone, and each layer's aggregation with ONE function (`agg1`, `conv2`) of the transformed features,
  stated once and met by both programs, so that the gather, the scatter-add and the normalisation are never opened.
-/
import proofs.«408785_j66949950210691_1_alg».proof.Proof.Gen.KernelIdeal.Frame
import proofs.«408785_j66949950210691_1_alg».proof.Proof.RefRead
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-- Rewrites what is left of a line of host operations inside the operand lists of its concatenates. -/
local macro "finish_results" : tactic =>
  `(tactic| (repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide))))

/-! ## The two aggregations as functions of the transformed features -/

/-- Layer 1's aggregation: the rows of `h` gathered along `src`, scaled by `norm`, summed into their `dst` rows. -/
def agg1 (h : (⟨Cert.ReferenceIdeal.S50000x256, .f32⟩ : BufTy).Contents (Elt F)) (x1 : (⟨Cert.ReferenceIdeal.S2x800000, .i32⟩ : BufTy).Contents (Elt F)) :
    (⟨Cert.ReferenceIdeal.S50000x256, .f32⟩ : BufTy).Contents (Elt F) :=
  Host.scatterAdd Cert.ReferenceIdeal.scatter_S50000x256_S850000x1_S850000x256_1_0_0_1 (val_main_v51 (F := F)) (val_main_v52 (F := F) x1)
    (mulf (Host.gather Cert.ReferenceIdeal.gather_S50000x256_S850000x1_S850000x256_1_0_n_n_0_1_1256 h (val_main_v46 (F := F) x1)) (val_main_v49 (F := F) x1))

/-- The reference's first aggregation is `agg1` of its transformed features. -/
theorem val53_eq (x0 x1 x3 x4) : val_main_v53 (F := F) x0 x1 x3 x4 = agg1 (val_main_v40 (F := F) x0 x3 x4) x1 := rfl

/-- Layer 2's aggregation plus its bias, over the edge arrays `src`, `norm`, `dst` given as arrays. -/
def conv2 (h : (⟨Cert.ReferenceIdeal.S50000x41, .f32⟩ : BufTy).Contents (Elt F)) (src : (⟨Cert.ReferenceIdeal.S850000, .i32⟩ : BufTy).Contents (Elt F))
    (nrm : (⟨Cert.ReferenceIdeal.S850000, .f32⟩ : BufTy).Contents (Elt F)) (dst : (⟨Cert.ReferenceIdeal.S850000, .i32⟩ : BufTy).Contents (Elt F))
    (x7 : (⟨Cert.ReferenceIdeal.S41, .f32⟩ : BufTy).Contents (Elt F)) : (⟨Cert.ReferenceIdeal.S50000x41, .f32⟩ : BufTy).Contents (Elt F) :=
  addf
    (Host.scatterAdd Cert.ReferenceIdeal.scatter_S50000x41_S850000x1_S850000x41_1_0_0_1
      (broadcastInDim Cert.ReferenceIdeal.S50000x41 ![] Cert.ReferenceIdeal.Gen.bcast_S_S50000x41 (constant Cert.ReferenceIdeal.S_ .f32 0x00000000#32))
      (broadcastInDim Cert.ReferenceIdeal.S850000x1 ![0] Cert.ReferenceIdeal.Gen.bcast_S850000_S850000x1_0 dst)
      (mulf
        (Host.gather Cert.ReferenceIdeal.gather_S50000x41_S850000x1_S850000x41_1_0_n_n_0_1_141 h
          (broadcastInDim Cert.ReferenceIdeal.S850000x1 ![0] Cert.ReferenceIdeal.Gen.bcast_S850000_S850000x1_0
            (select (cmpi .slt src (broadcastInDim Cert.ReferenceIdeal.S850000 ![] Cert.ReferenceIdeal.Gen.bcast_S_S850000 (constantI Cert.ReferenceIdeal.S_ 32 0#32)))
              (addi src (broadcastInDim Cert.ReferenceIdeal.S850000 ![] Cert.ReferenceIdeal.Gen.bcast_S_S850000 (constantI Cert.ReferenceIdeal.S_ 32 50000#32)))
              src)))
        (broadcastInDim Cert.ReferenceIdeal.S850000x41 ![0, 1] Cert.ReferenceIdeal.Gen.bcast_S850000x1_S850000x41_0_1
          (broadcastInDim Cert.ReferenceIdeal.S850000x1 ![0] Cert.ReferenceIdeal.Gen.bcast_S850000_S850000x1_0 nrm))))
    (broadcastInDim Cert.ReferenceIdeal.S50000x41 ![0, 1] Cert.ReferenceIdeal.Gen.bcast_S1x41_S50000x41_0_1
      (broadcastInDim Cert.ReferenceIdeal.S1x41 ![1] Cert.ReferenceIdeal.Gen.bcast_S41_S1x41_1 x7))

/-- The reference's second layer is `conv2` of its transformed features and its own edge arrays. -/
theorem val100_eq (x0 x1 x3 x4 x5 x6 x7) : val_main_v100 (F := F) x0 x1 x3 x4 x5 x6 x7
    = conv2 (val_main_v84 (F := F) x0 x1 x3 x4 x5 x6) (val_main_v3 (F := F) x1) (val_main_v83 (F := F) x1) (val_main_v6 (F := F) x1) x7 := rfl

/-- The reference computes the normalisation twice, from the same edge list: one array. -/
theorem val83_eq (x1) : val_main_v83 (F := F) x1 = val_main_v39 (F := F) x1 := rfl

/-! ## Before region 0 -/

theorem v3_ids (c : Dev nD) : W3 m ρ c (Proc.devRef .tc main_v4)
    = shapeCast S50000x1 (m ((c.tc : Thread nD τ).loc main_arg0)) shapeCasts_S50000_S50000x1 := by
  show StableHlo.after hostOps0_2 (StableHlo.after hostOps0_1 (StableHlo.after hostOps0 (W0 m ρ c))) (Proc.devRef .tc main_v4) = _
  after_results
  rfl

theorem v3_tab (c : Dev nD) : W3 m ρ c (Proc.devRef .tc main_v1)
    = truncf .bf16 (pad S1408x128 ![0, 0] ![68, 0] ![0, 0] (m ((c.tc : Thread nD τ).loc main_arg3))
        (sitofp (F := F) .f32 (constantI S_ 32 0#32)) pads_S1340x128_S1408x128_0680_000 h_S_) bitsLt_bf16_f32 := by
  show StableHlo.after hostOps0_2 (StableHlo.after hostOps0_1 (StableHlo.after hostOps0 (W0 m ρ c))) (Proc.devRef .tc main_v1) = _
  after_results
  simp only [TRef.ofBuf, TRef.toBuf, cast_eq]

theorem v3_w1 (c : Dev nD) : W3 m ρ c (Proc.devRef .tc main_v2)
    = truncf .bf16 (m ((c.tc : Thread nD τ).loc main_arg4)) bitsLt_bf16_f32 := by
  show StableHlo.after hostOps0_2 (StableHlo.after hostOps0_1 (StableHlo.after hostOps0 (W0 m ρ c))) (Proc.devRef .tc main_v2) = _
  after_results

theorem v3_w2 (c : Dev nD) : W3 m ρ c (Proc.devRef .tc main_v3)
    = truncf .bf16 (m ((c.tc : Thread nD τ).loc main_arg6)) bitsLt_bf16_f32 := by
  show StableHlo.after hostOps0_2 (StableHlo.after hostOps0_1 (StableHlo.after hostOps0 (W0 m ρ c))) (Proc.devRef .tc main_v3) = _
  after_results

/-- No host operation before region 0 writes an argument. -/
theorem w3_arg (c : Dev nD) (b : Ref sig .tc) (hb : b = main_arg1 ∨ b = main_arg2 ∨ b = main_arg5 ∨ b = main_arg7) :
    W3 m ρ c (Proc.devRef .tc b) = m ((c.tc : Thread nD τ).loc b) := by
  show StableHlo.after hostOps0_2 (StableHlo.after hostOps0_1 (StableHlo.after hostOps0 (W0 m ρ c))) (Proc.devRef .tc b) = _
  rcases hb with rfl | rfl | rfl | rfl <;> (after_results; try rfl)

/-! ## Region 0 leaves every buffer but its own arrays -/

theorem w4_arg (c : Dev nD) (b : Ref sig .tc) (hb : b = main_arg1 ∨ b = main_arg2 ∨ b = main_arg5 ∨ b = main_arg7) :
    W4 m ρ c (Proc.devRef .tc b) = m ((c.tc : Thread nD τ).loc b) := by
  rcases hb with rfl | rfl | rfl | rfl
  · exact (W4_of_ne m ρ c main_arg1 (by decide)).trans (w3_arg m ρ c _ (.inl rfl))
  · exact (W4_of_ne m ρ c main_arg2 (by decide)).trans (w3_arg m ρ c _ (.inr (.inl rfl)))
  · exact (W4_of_ne m ρ c main_arg5 (by decide)).trans (w3_arg m ρ c _ (.inr (.inr (.inl rfl))))
  · exact (W4_of_ne m ρ c main_arg7 (by decide)).trans (w3_arg m ρ c _ (.inr (.inr (.inr rfl))))

theorem w4_w2 (c : Dev nD) : W4 m ρ c (Proc.devRef .tc main_v3)
    = truncf .bf16 (m ((c.tc : Thread nD τ).loc main_arg6)) bitsLt_bf16_f32 :=
  (W4_of_ne m ρ c main_v3 (by decide)).trans (v3_w2 m ρ c)

/-! ## Between region 0 and region 1 -/

set_option maxHeartbeats 4000000 in
/-- Region 1's first operand is layer 1's aggregation of region 0's result. -/
theorem k_agg1 (c : Dev nD) : W9 m ρ c (Proc.devRef .tc main_v51)
    = agg1 (W4 m ρ c (Proc.devRef .tc main_v5)) (W4 m ρ c (Proc.devRef .tc main_arg1)) := by
  show StableHlo.after hostOps1_4 (StableHlo.after hostOps1_3 (StableHlo.after hostOps1_2 (StableHlo.after hostOps1_1 (StableHlo.after hostOps1 (W4 m ρ c))))) (Proc.devRef .tc main_v51) = _
  generalize W4 m ρ c = W
  after_results_simp
  finish_results
  simp only [TRef.ofBuf, TRef.toBuf, cast_eq]
  rfl

set_option maxHeartbeats 4000000 in
theorem k_bias (c : Dev nD) : W9 m ρ c (Proc.devRef .tc main_v52)
    = shapeCast S1x256 (W4 m ρ c (Proc.devRef .tc main_arg5)) shapeCasts_S256_S1x256 := by
  show StableHlo.after hostOps1_4 (StableHlo.after hostOps1_3 (StableHlo.after hostOps1_2 (StableHlo.after hostOps1_1 (StableHlo.after hostOps1 (W4 m ρ c))))) (Proc.devRef .tc main_v52) = _
  generalize W4 m ρ c = W
  after_results_simp
  rfl

set_option maxHeartbeats 4000000 in
/-- The host operations between regions 0 and 1 write none of these buffers. -/
theorem w9_keep (c : Dev nD) (b : Ref sig .tc) (hb : b = main_v3 ∨ b = main_arg1 ∨ b = main_arg2 ∨ b = main_arg7) :
    W9 m ρ c (Proc.devRef .tc b) = W4 m ρ c (Proc.devRef .tc b) := by
  show StableHlo.after hostOps1_4 (StableHlo.after hostOps1_3 (StableHlo.after hostOps1_2 (StableHlo.after hostOps1_1 (StableHlo.after hostOps1 (W4 m ρ c))))) (Proc.devRef .tc b) = _
  generalize W4 m ρ c = W
  rcases hb with rfl | rfl | rfl | rfl <;> after_results_simp

set_option maxHeartbeats 4000000 in
theorem k_src (c : Dev nD) : W9 m ρ c (Proc.devRef .tc main_v9) = val_main_v3 (F := F) (W4 m ρ c (Proc.devRef .tc main_arg1)) := by
  show StableHlo.after hostOps1_4 (StableHlo.after hostOps1_3 (StableHlo.after hostOps1_2 (StableHlo.after hostOps1_1 (StableHlo.after hostOps1 (W4 m ρ c))))) (Proc.devRef .tc main_v9) = _
  generalize W4 m ρ c = W
  after_results_simp
  finish_results
  rfl

set_option maxHeartbeats 4000000 in
theorem k_dst (c : Dev nD) : W9 m ρ c (Proc.devRef .tc main_v12) = val_main_v6 (F := F) (W4 m ρ c (Proc.devRef .tc main_arg1)) := by
  show StableHlo.after hostOps1_4 (StableHlo.after hostOps1_3 (StableHlo.after hostOps1_2 (StableHlo.after hostOps1_1 (StableHlo.after hostOps1 (W4 m ρ c))))) (Proc.devRef .tc main_v12) = _
  generalize W4 m ρ c = W
  after_results_simp
  finish_results
  rfl

set_option maxHeartbeats 4000000 in
theorem k_norm (c : Dev nD) : W9 m ρ c (Proc.devRef .tc main_v38) = val_main_v39 (F := F) (W4 m ρ c (Proc.devRef .tc main_arg1)) := by
  show StableHlo.after hostOps1_4 (StableHlo.after hostOps1_3 (StableHlo.after hostOps1_2 (StableHlo.after hostOps1_1 (StableHlo.after hostOps1 (W4 m ρ c))))) (Proc.devRef .tc main_v38) = _
  generalize W4 m ρ c = W
  after_results_simp
  finish_results
  simp only [TRef.ofBuf, TRef.toBuf, cast_eq]
  rfl

/-! ## Between region 1 and region 2 -/

set_option maxHeartbeats 4000000 in
/-- Region 2's second operand is layer 2's aggregation of region 1's result, over the edge arrays as buffers. -/
theorem k_conv2 (c : Dev nD) : W11 m ρ c (Proc.devRef .tc main_v69)
    = conv2 (W10 m ρ c (Proc.devRef .tc main_v53)) (W10 m ρ c (Proc.devRef .tc main_v9)) (W10 m ρ c (Proc.devRef .tc main_v38))
        (W10 m ρ c (Proc.devRef .tc main_v12)) (W10 m ρ c (Proc.devRef .tc main_arg7)) := by
  show StableHlo.after hostOps2 (W10 m ρ c) (Proc.devRef .tc main_v69) = _
  generalize W10 m ρ c = W
  after_results_simp
  rfl

set_option maxHeartbeats 4000000 in
theorem k_seg (c : Dev nD) : W11 m ρ c (Proc.devRef .tc main_v70)
    = shapeCast S50000x1 (W10 m ρ c (Proc.devRef .tc main_arg2)) shapeCasts_S50000_S50000x1 := by
  show StableHlo.after hostOps2 (W10 m ρ c) (Proc.devRef .tc main_v70) = _
  generalize W10 m ρ c = W
  after_results_simp
  rfl

end Cert.KernelIdeal.Chain

end
-- ==== Proof.Spec.lean ====
/-
  The three dense stages of the network as whole-array functions over the extended reals.

  A table lookup written as a product with one-hot rows followed by a dense layer (`embedDense`); a bias, a
  rectifier and a dense layer (`denseRelu`); and a segment sum written as a product with the transposed one-hot
  matrix (`pool`).  An entry of a one-hot row is `hot a b`: one where the two words agree, zero elsewhere.
-/
import proofs.«408785_j66949950210691_1_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal

/-- An entry of a one-hot row: `1` where the index word equals the position word, `0` elsewhere. -/
def hot (a b : BitVec 32) : EReal := if a = b then 1 else 0

/-- Row `p`, column `q` of `onehot(ids) · tab · w`: the inner sum over the `1408` table rows selects row `ids p`
    of the table, the outer sum over the `128` features is the dense layer. -/
def embedAt (ids : S50000x1.Idx → BitVec 32) (tab : S1408x128.Idx → EReal) (w : S128x256.Idx → EReal)
    (p : Fin 50000) (q : Fin 256) : EReal :=
  ∑ d : Fin 128, (∑ k : Fin 1408, hot (ids (ix2 p (0 : Fin 1))) (BitVec.ofNat 32 k.val) * tab (ix2 k d)) * w (ix2 d q)

/-- `onehot(ids) · tab · w` as an array of shape `[50000, 256]`. -/
def embedDense (ids : S50000x1.Idx → BitVec 32) (tab : S1408x128.Idx → EReal) (w : S128x256.Idx → EReal) :
    S50000x256.Idx → EReal :=
  fun i => embedAt ids tab w (i 0) (i 1)

/-- Row `p`, column `q` of `max(agg + b, 0) · w`; the zero is kept as the word the programs print. -/
def denseReluAt (agg : S50000x256.Idx → EReal) (b : S1x256.Idx → EReal) (w : S256x41.Idx → EReal)
    (p : Fin 50000) (q : Fin 41) : EReal :=
  ∑ k : Fin 256, max (agg (ix2 p k) + b (ix2 (0 : Fin 1) k)) (Ideal.ofBits .f32 0x00000000#32) * w (ix2 k q)

/-- `max(agg + b, 0) · w` as an array of shape `[50000, 41]`. -/
def denseRelu (agg : S50000x256.Idx → EReal) (b : S1x256.Idx → EReal) (w : S256x41.Idx → EReal) :
    S50000x41.Idx → EReal :=
  fun i => denseReluAt agg b w (i 0) (i 1)

/-- Row `g`, column `q` of `onehot(seg)ᵀ · x`: the sum of the rows of `x` whose segment word is `g`. -/
def poolAt (seg : S50000x1.Idx → BitVec 32) (x : S50000x41.Idx → EReal) (g : Fin 512) (q : Fin 41) : EReal :=
  ∑ n : Fin 50000, hot (seg (ix2 n (0 : Fin 1))) (BitVec.ofNat 32 g.val) * x (ix2 n q)

/-- `onehot(seg)ᵀ · x` as an array of shape `[512, 41]`. -/
def pool (seg : S50000x1.Idx → BitVec 32) (x : S50000x41.Idx → EReal) : S512x41.Idx → EReal :=
  fun i => poolAt seg x (i 0) (i 1)

theorem embedDense_ix2 (ids : S50000x1.Idx → BitVec 32) (tab : S1408x128.Idx → EReal) (w : S128x256.Idx → EReal)
    (p : Fin 50000) (q : Fin 256) : embedDense ids tab w (ix2 p q) = embedAt ids tab w p q := rfl

theorem denseRelu_ix2 (agg : S50000x256.Idx → EReal) (b : S1x256.Idx → EReal) (w : S256x41.Idx → EReal)
    (p : Fin 50000) (q : Fin 41) : denseRelu agg b w (ix2 p q) = denseReluAt agg b w p q := rfl

theorem pool_ix2 (seg : S50000x1.Idx → BitVec 32) (x : S50000x41.Idx → EReal) (g : Fin 512) (q : Fin 41) :
    pool seg x (ix2 g q) = poolAt seg x g q := rfl

end Cert.KernelIdeal.Spec

end
-- ==== Proof.EmbedArray.lean ====
/-
  Region 0 (the embedding lookup fused with the first dense layer): what its result array holds after the region.
-/
import proofs.«408785_j66949950210691_1_alg».proof.Proof.Gen.KernelIdeal.Frame
import proofs.«408785_j66949950210691_1_alg».proof.Proof.Spec
import proofs.«408785_j66949950210691_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Embed

open Cert.KernelIdeal Cert.KernelIdeal.Gen

/-! ## The body's value at an index -/

/-- The compare bit of two words, widened and converted, is the one-hot entry: one where the words agree, zero
    elsewhere. -/
theorem sitofp_cmpi_eq (a b : BitVec 32) :
    FloatOps.sitofp (F := Ideal) .f32 ((IntOp.cmpi .eq a b).setWidth 32) = Spec.hot a b := by
  show (((((IntOp.cmpi .eq a b).setWidth 32).toInt : ℝ)) : EReal) = Spec.hot a b
  unfold Spec.hot IntOp.cmpi
  by_cases h : a = b
  · subst h
    simp
  · have hb : (a == b) = false := by simpa using h
    simp [hb, h]

/-- The index column broadcast along the 1408 lanes reads row `p`'s word at every lane. -/
theorem ids_lanes (v : IVec S2000x1 32) (p : Fin 2000) (k : Fin 1408) :
    broadcastTo S2000x1408 v broadcasts_S2000x1_S2000x1408 (ix2 p k) = v (ix2 p (0 : Fin 1)) := by
  refine broadcastTo_apply v broadcasts_S2000x1_S2000x1408 (ix2 p k) (ix2 p (0 : Fin 1)) fun ax => ?_
  match ax with
  | ⟨0, _⟩ =>
    show p.val = if (2000 : Nat) = 1 then 0 else p.val
    rw [if_neg (by decide)]
  | ⟨1, _⟩ =>
    show (0 : Fin 1).val = if (1 : Nat) = 1 then 0 else k.val
    rw [if_pos rfl]
    rfl

/-- The lane counter broadcast down the 2000 rows reads the lane's number at every row. -/
theorem lane_rows (p : Fin 2000) (k : Fin 1408) :
    broadcastTo S2000x1408 (iota .tc S1x1408 32 [1] iota_S1x1408_d1_w32) broadcasts_S1x1408_S2000x1408 (ix2 p k)
      = BitVec.ofNat 32 k.val := by
  refine (broadcastTo_1b_ab_apply _ broadcasts_S1x1408_S2000x1408 p k).trans ?_
  exact iota_single_apply .tc S1x1408 32 1 iota_S1x1408_d1_w32 (ix2 (0 : Fin 1) k)

/-! The two products onto a zero accumulator are plain sums of products over the contracted axis: the contraction
    index of each is its one coordinate, and each operand's index puts that coordinate on its contracted axis and
    the result's coordinate on the other. -/

theorem lhs_lookup_0 (i : S2000x128.Idx) (q : dot_S2000x1408_S1408x128_S2000x128_1_0_0_1_n_n.contr.Idx) :
    (dot_S2000x1408_S1408x128_S2000x128_1_0_0_1_n_n.lhsIdx i q 0).val = (i 0).val := by
  unfold DotDims.lhsIdx
  rw [dif_neg (show ¬(0 : Fin S2000x1408.rank) ∈ dot_S2000x1408_S1408x128_S2000x128_1_0_0_1_n_n.lhsBatch by decide), dif_pos (show (0 : Fin S2000x1408.rank) ∈ dot_S2000x1408_S1408x128_S2000x128_1_0_0_1_n_n.lhsNonContracting by decide)]
  rfl
theorem lhs_lookup_1 (i : S2000x128.Idx) (q : dot_S2000x1408_S1408x128_S2000x128_1_0_0_1_n_n.contr.Idx) :
    (dot_S2000x1408_S1408x128_S2000x128_1_0_0_1_n_n.lhsIdx i q 1).val = (q ⟨0, by decide⟩).val :=
  dot_S2000x1408_S1408x128_S2000x128_1_0_0_1_n_n.lhsIdx_val_of_single rfl i q
theorem rhs_lookup_0 (i : S2000x128.Idx) (q : dot_S2000x1408_S1408x128_S2000x128_1_0_0_1_n_n.contr.Idx) :
    (dot_S2000x1408_S1408x128_S2000x128_1_0_0_1_n_n.rhsIdx i q 0).val = (q ⟨0, by decide⟩).val :=
  dot_S2000x1408_S1408x128_S2000x128_1_0_0_1_n_n.rhsIdx_val_of_single rfl i q
theorem rhs_lookup_1 (i : S2000x128.Idx) (q : dot_S2000x1408_S1408x128_S2000x128_1_0_0_1_n_n.contr.Idx) :
    (dot_S2000x1408_S1408x128_S2000x128_1_0_0_1_n_n.rhsIdx i q 1).val = (i 1).val := by
  unfold DotDims.rhsIdx
  rw [dif_neg (show ¬(1 : Fin S1408x128.rank) ∈ dot_S2000x1408_S1408x128_S2000x128_1_0_0_1_n_n.rhsBatch by decide), dif_pos (show (1 : Fin S1408x128.rank) ∈ dot_S2000x1408_S1408x128_S2000x128_1_0_0_1_n_n.rhsNonContracting by decide)]
  rfl

/-- The one-hot rows times the table: a sum over the 1408 table rows. -/
theorem lookup_apply (x : FVec Ideal S2000x1408 .bf16) (y : FVec Ideal S1408x128 .bf16) (p : Fin 2000) (d : Fin 128) :
    matmul dot_S2000x1408_S1408x128_S2000x128_1_0_0_1_n_n none x y (constant (F := Ideal) S2000x128 .f32 0x00000000#32) (ix2 p d)
      = ∑ k : Fin 1408, x (ix2 p k) * y (ix2 k d) := by
  show FloatOps.matmul dot_S2000x1408_S1408x128_S2000x128_1_0_0_1_n_n none x y (constant (F := Ideal) S2000x128 .f32 0x00000000#32) (ix2 p d) = _
  rw [Ideal.matmul_constant_zero_apply, ← Equiv.sum_comp (contrEquiv1 dot_S2000x1408_S1408x128_S2000x128_1_0_0_1_n_n 1408 rfl rfl).symm]
  refine Finset.sum_congr rfl fun k _ => ?_
  have hk := contrEquiv1_symm_val dot_S2000x1408_S1408x128_S2000x128_1_0_0_1_n_n 1408 rfl rfl k
  have el : dot_S2000x1408_S1408x128_S2000x128_1_0_0_1_n_n.lhsIdx (ix2 p d) ((contrEquiv1 dot_S2000x1408_S1408x128_S2000x128_1_0_0_1_n_n 1408 rfl rfl).symm k) = ix2 p k := funext fun a => Fin.ext (by
    match a with
    | ⟨0, _⟩ => exact lhs_lookup_0 _ _
    | ⟨1, _⟩ => exact (lhs_lookup_1 _ _).trans hk)
  have er : dot_S2000x1408_S1408x128_S2000x128_1_0_0_1_n_n.rhsIdx (ix2 p d) ((contrEquiv1 dot_S2000x1408_S1408x128_S2000x128_1_0_0_1_n_n 1408 rfl rfl).symm k) = ix2 k d := funext fun a => Fin.ext (by
    match a with
    | ⟨0, _⟩ => exact (rhs_lookup_0 _ _).trans hk
    | ⟨1, _⟩ => exact rhs_lookup_1 _ _)
  rw [el, er]

theorem lhs_dense_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_dense_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dense_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dense_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The looked-up rows times the weights: a sum over the 128 features. -/
theorem dense_apply (x : FVec Ideal S2000x128 .bf16) (y : FVec Ideal S128x256 .bf16) (p : Fin 2000) (q : Fin 256) :
    matmul dot_S2000x128_S128x256_S2000x256_1_0_0_1_n_n none x y (constant (F := Ideal) S2000x256 .f32 0x00000000#32) (ix2 p q)
      = ∑ d : Fin 128, x (ix2 p d) * y (ix2 d q) := by
  show FloatOps.matmul dot_S2000x128_S128x256_S2000x256_1_0_0_1_n_n none x y (constant (F := Ideal) S2000x256 .f32 0x00000000#32) (ix2 p q) = _
  rw [Ideal.matmul_constant_zero_apply, ← Equiv.sum_comp (contrEquiv1 dot_S2000x128_S128x256_S2000x256_1_0_0_1_n_n 128 rfl rfl).symm]
  refine Finset.sum_congr rfl fun d _ => ?_
  have hd := contrEquiv1_symm_val dot_S2000x128_S128x256_S2000x256_1_0_0_1_n_n 128 rfl rfl d
  have el : dot_S2000x128_S128x256_S2000x256_1_0_0_1_n_n.lhsIdx (ix2 p q) ((contrEquiv1 dot_S2000x128_S128x256_S2000x256_1_0_0_1_n_n 128 rfl rfl).symm d) = ix2 p d := funext fun a => Fin.ext (by
    match a with
    | ⟨0, _⟩ => exact lhs_dense_0 _ _
    | ⟨1, _⟩ => exact (lhs_dense_1 _ _).trans hd)
  have er : dot_S2000x128_S128x256_S2000x256_1_0_0_1_n_n.rhsIdx (ix2 p q) ((contrEquiv1 dot_S2000x128_S128x256_S2000x256_1_0_0_1_n_n 128 rfl rfl).symm d) = ix2 d q := funext fun a => Fin.ext (by
    match a with
    | ⟨0, _⟩ => exact (rhs_dense_0 _ _).trans hd
    | ⟨1, _⟩ => exact rhs_dense_1 _ _)
  rw [el, er]

/-- The body's result at row `p`, column `q` of its block: the one-hot row of `p`'s index word selects a table row, the
    dense layer sums it against column `q` of the weights. Rounding to the narrower format is the identity on the
    extended reals, and a cast to the same shape changes nothing. -/
theorem body_apply (x0 : Vec Ideal S2000x1 .i32) (x1 : Vec Ideal S1408x128 .bf16) (x2 : Vec Ideal S128x256 .bf16)
    (p : Fin 2000) (q : Fin 256) :
    k0_pay1 (F := Ideal) x0 x1 x2 (ix2 p q)
      = ∑ d : Fin 128, (∑ k : Fin 1408, Spec.hot (x0 (ix2 p (0 : Fin 1))) (BitVec.ofNat 32 k.val) * x1 (ix2 k d)) * x2 (ix2 d q) := by
  unfold k0_pay1
  refine (dense_apply _ _ p q).trans ?_
  refine Finset.sum_congr rfl fun d _ => ?_
  refine congrArg₂ (· * ·) ?_ ?_
  · refine (lookup_apply _ _ p d).trans ?_
    refine Finset.sum_congr rfl fun k _ => ?_
    refine congrArg₂ (· * ·) ?_ ?_
    · show FloatOps.sitofp (F := Ideal) .f32 ((IntOp.cmpi .eq (broadcastTo S2000x1408 (shapeCast S2000x1 x0 shapeCasts_S2000x1_S2000x1) broadcasts_S2000x1_S2000x1408 (ix2 p k)) (broadcastTo S2000x1408 (iota .tc S1x1408 32 [1] iota_S1x1408_d1_w32) broadcasts_S1x1408_S2000x1408 (ix2 p k))).setWidth 32) = _
      rw [ids_lanes, lane_rows, shapeCast_self]
      exact sitofp_cmpi_eq _ _
    · exact congrFun (shapeCast_self x1 shapeCasts_S1408x128_S1408x128) (ix2 k d)
  · exact congrFun (shapeCast_self x2 shapeCasts_S128x256_S128x256) (ix2 d q)

/-- The body's result on a block, read at `(p, q)`, is the whole-array function at the array index `i` that block entry
    sits at — given that the index block's row `p` is the index array's row `i 0`, that the table and weight blocks are
    the whole arrays, and that `i`'s column is `q`. -/
theorem block_apply (ids : S50000x1.Idx → BitVec 32) (tab : S1408x128.Idx → EReal) (w : S128x256.Idx → EReal)
    (x0 : Vec Ideal S2000x1 .i32) (x1 : Vec Ideal S1408x128 .bf16) (x2 : Vec Ideal S128x256 .bf16)
    (i : S50000x256.Idx) (p : Fin 2000) (q : Fin 256)
    (h0 : x0 (ix2 p (0 : Fin 1)) = ids (ix2 (i 0) (0 : Fin 1))) (h1 : x1 = tab) (h2 : x2 = w) (hq : (i 1).val = q.val) :
    k0_pay1 (F := Ideal) x0 x1 x2 (ix2 p q) = Spec.embedDense ids tab w i := by
  subst h1 h2
  refine (body_apply x0 x1 x2 p q).trans ?_
  show _ = Spec.embedAt ids x1 x2 (i 0) (i 1)
  unfold Spec.embedAt
  have hi1 : i 1 = q := Fin.ext hq
  rw [h0, hi1]

variable (V : (c : Dev nD) → (b : Ref sig .tc) → Buf (Elt Ideal) ((c : Thread nD τ).loc b))

/-! ## What a point writes back -/

theorem zero_offsets : (![0, 0] : Fin 2 → Nat) = fun _ => 0 := funext fun a => by fin_cases a <;> rfl

/-- The printed index maps, decided over the 25 points: the index column moves with the result's rows, the table and
    the weights stay put, and the result's block at point `t` is block `t` of the rows. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole-array function of the three arrays the region finds: an entry
    of a block sits in its array, on each axis, at the block's index times the block's size plus the entry's own
    coordinate. -/
theorem flushed_eq (c : Dev nD) (t : Fin cfg0.N) :
    (dat0 (F := Ideal) V c).flushed 3 t
      = ((cfg0.win 3).blk t).view.read (Elt Ideal) (Spec.embedDense (V c main_v4) (V c main_v1) (V c main_v2)) := by
  show (cfg0.win 3).cut (grid0.coords t) ((dat0 (F := Ideal) V c).after 3 t) = _
  rw [after0_3]
  unfold out0_3
  rw [View.canon_unit_zero zero_offsets]
  simp only [View.ld_unit_zero (S := S2000x1) zero_offsets, View.ld_unit_zero (S := S1408x128) zero_offsets, View.ld_unit_zero (S := S128x256) zero_offsets]
  obtain ⟨e00, e01, e10, e11, e20, e21, e30, e31⟩ := block_index t
  funext j
  show k0_pay1 (F := Ideal) (iblk0 V c 0 t) (iblk0 V c 1 t) (iblk0 V c 2 t) ((cfg0.win 3).xinj (grid0.coords t) j)
    = Spec.embedDense (V c main_v4) (V c main_v1) (V c main_v2) (((cfg0.win 3).blk t).view.emb j)
  refine (congrArg (k0_pay1 (F := Ideal) (iblk0 V c 0 t) (iblk0 V c 1 t) (iblk0 V c 2 t)) (eq_ix2 _)).trans ?_
  refine block_apply (V c main_v4) (V c main_v1) (V c main_v2) (iblk0 V c 0 t) (iblk0 V c 1 t) (iblk0 V c 2 t)
    (((cfg0.win 3).blk t).view.emb j) _ _ ?_ ?_ ?_ ?_
  · show V c main_v4 (((cfg0.win 0).blk t).view.emb (ix2 ((cfg0.win 3).xinj (grid0.coords t) j 0) (0 : Fin 1))) = _
    refine congrArg (V c main_v4) (funext fun a => Fin.ext ?_)
    match a with
    | ⟨0, _⟩ =>
      show win0_0.index t (0 : Fin 2) * 2000 + 1 * (j 0).val = win0_3.index t (0 : Fin 2) * 2000 + 1 * (j 0).val
      rw [e00, e30]
    | ⟨1, _⟩ =>
      show win0_0.index t (1 : Fin 2) * 1 + 1 * 0 = 0
      rw [e01]
  · funext y
    show V c main_v1 (((cfg0.win 1).blk t).view.emb y) = V c main_v1 y
    refine congrArg (V c main_v1) (funext fun a => Fin.ext ?_)
    match a with
    | ⟨0, _⟩ =>
      show win0_1.index t (0 : Fin 2) * 1408 + 1 * (y 0).val = (y 0).val
      rw [e10]; omega
    | ⟨1, _⟩ =>
      show win0_1.index t (1 : Fin 2) * 128 + 1 * (y 1).val = (y 1).val
      rw [e11]; omega
  · funext y
    show V c main_v2 (((cfg0.win 2).blk t).view.emb y) = V c main_v2 y
    refine congrArg (V c main_v2) (funext fun a => Fin.ext ?_)
    match a with
    | ⟨0, _⟩ =>
      show win0_2.index t (0 : Fin 2) * 128 + 1 * (y 0).val = (y 0).val
      rw [e20]; omega
    | ⟨1, _⟩ =>
      show win0_2.index t (1 : Fin 2) * 256 + 1 * (y 1).val = (y 1).val
      rw [e21]; omega
  · show win0_3.index t (1 : Fin 2) * 256 + 1 * (j 1).val = (j 1).val
    rw [e31]; omega

/-! ## The blocks tile the array -/

/-- An index of the result array is in point `t`'s block iff each coordinate is in the block's range on its axis. -/
theorem mem_block (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v5).slice (win0_3.rect t)).set ↔ _
  rw [View.set_slice_whole, Rect.mem_set_unit]
  exact Iff.rfl

/-- Row `r` of the result lies in the block of point `r / 2000`, which writes its block back. -/
theorem covered (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 2000 < cfg0.N := by
    show (i 0).val / 2000 < 25
    omega
  obtain ⟨-, -, -, -, -, -, e30, e31⟩ := block_index ⟨(i 0).val / 2000, ht⟩
  have e30' : win0_3.index ⟨(i 0).val / 2000, ht⟩ (0 : Fin 2) = (i 0).val / 2000 := e30
  refine ⟨⟨(i 0).val / 2000, ht⟩, flush0_3 _, ?_⟩
  rw [mem_block]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30']
    omega
  | ⟨1, _⟩ =>
    show win0_3.index ⟨(i 0).val / 2000, ht⟩ (1 : Fin 2) * 256 ≤ (i 1).val
      ∧ (i 1).val < win0_3.index ⟨(i 0).val / 2000, ht⟩ (1 : Fin 2) * 256 + 256
    rw [e31]
    omega

/-- After region 0 its result array is `onehot(ids) · table · w` of the three arrays the region finds. -/
theorem array (c : Dev nD) :
    (dat0 (F := Ideal) V c).arrAt 3 cfg0.N = Spec.embedDense (V c main_v4) (V c main_v1) (V c main_v2) := by
  exact (dat0 (F := Ideal) V c).arrAt_eq_of_cover 3 (Spec.embedDense (V c main_v4) (V c main_v1) (V c main_v2))
    (fun t _ => flushed_eq V c t) covered

end Cert.KernelIdeal.Embed

end
-- ==== Proof.EmbedBridge.lean ====
/-
  The embedding lookup as a one-hot product against the reference's gather, for indices inside the table.
-/
import proofs.«408785_j66949950210691_1_alg».proof.Proof.Gen.KernelIdeal.Frame
import proofs.«408785_j66949950210691_1_alg».proof.Proof.Spec
import proofs.«408785_j66949950210691_1_alg».proof.Proof.Gen.ReferenceIdeal
import proofs.«408785_j66949950210691_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Embed

open Cert.KernelIdeal Cert.KernelIdeal.Gen

/-- A word whose signed value is not negative is the word of that value. -/
private theorem word_of_toInt (a : BitVec 32) (h0 : 0 ≤ a.toInt) : a = BitVec.ofNat 32 a.toInt.toNat := by
  apply BitVec.eq_of_toNat_eq
  have hlt := a.isLt
  rw [BitVec.toNat_ofNat, BitVec.toInt_eq_toNat_cond] at *
  split at h0 <;> omega

/-- Two numbers below `2 ^ 32` with the same word are equal. -/
private theorem ofNat_inj_small (r k : Nat) (hr : r < 2 ^ 32) (hk : k < 2 ^ 32) (h : BitVec.ofNat 32 r = BitVec.ofNat 32 k) : r = k := by
  have := congrArg BitVec.toNat h
  rw [BitVec.toNat_ofNat, BitVec.toNat_ofNat, Nat.mod_eq_of_lt hr, Nat.mod_eq_of_lt hk] at this
  exact this

/-- The reference's wrap of a negative index leaves a non-negative word alone. -/
private theorem wrap_eq (a : BitVec 32) (h0 : 0 ≤ a.toInt) :
    Scalar.select (IntOp.cmpi .slt a 0#32) (IntOp.addi a 1340#32) a = a := by
  have hc : IntOp.cmpi .slt a 0#32 = 0#1 := by
    show BitVec.ofBool (a.slt 0#32) = 0#1
    have : a.slt 0#32 = false := by
      rw [BitVec.slt]
      have z : (0#32 : BitVec 32).toInt = 0 := by decide
      rw [z]
      exact decide_eq_false (by omega)
    rw [this]; rfl
  rw [hc]
  exact select_zero _ _

/-- The table padded below with zero rows, read at one of the table's own rows, is the table's entry. -/
private theorem padded_row (x3 : FVec Ideal S1340x128 .f32) (r : Nat) (hr : r < 1340) (d : Fin 128) :
    pad S1408x128 ![0, 0] ![68, 0] ![0, 0] x3 (sitofp (F := Ideal) .f32 (constantI S_ 32 0#32)) pads_S1340x128_S1408x128_0680_000 h_S_
        (ix2 (⟨r, by omega⟩ : Fin 1408) d)
      = x3 (ix2 (⟨r, hr⟩ : Fin 1340) d) := by
  unfold pad
  split
  · refine congrArg x3 (funext fun a => Fin.ext ?_)
    match a with
    | ⟨0, _⟩ => show (r - 0) / (0 + 1) = r; omega
    | ⟨1, _⟩ => show (d.val - 0) / (0 + 1) = d.val; omega
  · rename_i hnin
    refine absurd (fun a => ?_) hnin
    match a with
    | ⟨0, _⟩ => show 0 ≤ r ∧ (r - 0) % (0 + 1) = 0 ∧ (r - 0) / (0 + 1) < 1340; omega
    | ⟨1, _⟩ => show 0 ≤ d.val ∧ (d.val - 0) % (0 + 1) = 0 ∧ (d.val - 0) / (0 + 1) < 128; have := d.isLt; omega

/-- The reference's row gather: one collapsed, start-indexed table axis and one offset axis of full width. -/
private abbrev G := Cert.ReferenceIdeal.gather_S1340x128_S50000x1_S50000x128_1_0_n_n_0_1_1128

/-- The row gather read at row `p`, feature `d`: the table's row named by the start index at `(p, 0)`, read signed
    and clamped into the table, at feature `d`. -/
private theorem gather_row (x3 : FVec Ideal S1340x128 .f32) (idx : IVec Cert.ReferenceIdeal.S50000x1 32) (p : Fin 50000) (d : Fin 128)
    (r : Fin 1340) (hr : r.val = min (idx (ix2 p (0 : Fin 1))).toInt.toNat 1339) :
    Host.gather G x3 idx (ix2 p d) = x3 (ix2 r d) := by
  unfold Host.gather
  refine congrArg x3 (funext fun a => Fin.ext ?_)
  match a with
  | ⟨0, _⟩ =>
    -- the table's row axis: collapsed, so no offset; not batching; its start is the clamped index
    show G.start (ix2 p d) idx 0 + G.batchCoord (ix2 p d) 0 + G.offCoord (ix2 p d) 0 = r.val
    rw [GatherDims.batchCoord_eq_zero G (ix2 p d) 0 (by decide), GatherDims.offCoord_eq_zero G (ix2 p d) 0 (by decide)]
    unfold GatherDims.start
    rw [dif_pos (show (0 : Fin Cert.ReferenceIdeal.S1340x128.rank) ∈ G.startIndexMap from by decide)]
    have hsi : G.siIdx (ix2 p d) ⟨List.idxOf (0 : Fin Cert.ReferenceIdeal.S1340x128.rank) G.startIndexMap,
        List.idxOf_lt_length_iff.2 (by decide)⟩ = ix2 p (0 : Fin 1) := by
      funext b; refine Fin.ext ?_
      match b with
      | ⟨0, _⟩ => rfl
      | ⟨1, _⟩ => rfl
    rw [hsi, hr]
    rfl
  | ⟨1, _⟩ =>
    -- the feature axis: not start-indexed, not batching; the result's offset coordinate
    show G.start (ix2 p d) idx 1 + G.batchCoord (ix2 p d) 1 + G.offCoord (ix2 p d) 1 = d.val
    rw [GatherDims.batchCoord_eq_zero G (ix2 p d) 1 (by decide)]
    unfold GatherDims.start GatherDims.offCoord
    rw [dif_neg (show ¬ (1 : Fin Cert.ReferenceIdeal.S1340x128.rank) ∈ G.startIndexMap from by decide),
      dif_pos (show (1 : Fin Cert.ReferenceIdeal.S1340x128.rank) ∈ G.sKept from by decide)]
    show 0 + 0 + d.val = d.val
    omega

/-- The product of a one-hot row with the padded table picks the table's row: the one-hot entry is `1` at the
    index word's own position, which lies inside the table, and `0` at every other position. -/
private theorem onehot_row (x3 : FVec Ideal S1340x128 .f32) (a : BitVec 32) (h0 : 0 ≤ a.toInt) (hr : a.toInt.toNat < 1340) (d : Fin 128) :
    (∑ k : Fin 1408, Spec.hot a (BitVec.ofNat 32 k.val)
      * truncf .bf16 (pad S1408x128 ![0, 0] ![68, 0] ![0, 0] x3 (sitofp (F := Ideal) .f32 (constantI S_ 32 0#32)) pads_S1340x128_S1408x128_0680_000 h_S_) bitsLt_bf16_f32 (ix2 k d))
      = x3 (ix2 (⟨a.toInt.toNat, hr⟩ : Fin 1340) d) := by
  have hw := word_of_toInt a h0
  rw [Finset.sum_eq_single (⟨a.toInt.toNat, by omega⟩ : Fin 1408)]
  · show Spec.hot a (BitVec.ofNat 32 a.toInt.toNat) * _ = _
    rw [← hw]
    unfold Spec.hot
    rw [if_pos rfl, one_mul]
    exact padded_row x3 _ hr d
  · intro k _ hk
    unfold Spec.hot
    rw [if_neg, zero_mul]
    intro e
    apply hk
    apply Fin.ext
    rw [hw] at e
    exact (ofNat_inj_small _ _ (by omega) (by have := k.isLt; omega) e).symm
  · intro h; exact absurd (Finset.mem_univ _) h

/-- For indices in `[0, 1340)` the product of the one-hot rows with the zero-padded table, then with `w`, is the
    reference's `table[ids] · w`: the one-hot row picks the table's row, the reference's negative-index wrap and
    clamp leave an index in range alone. -/
theorem bridge (x0 : IVec S50000 32) (x3 : FVec Ideal S1340x128 .f32) (x4 : FVec Ideal S128x256 .f32)
    (hx : ∀ n : S50000.Idx, 0 ≤ (x0 n).toInt ∧ (x0 n).toInt < 1340) :
    Spec.embedDense (shapeCast S50000x1 x0 shapeCasts_S50000_S50000x1)
      (truncf .bf16 (pad S1408x128 ![0, 0] ![68, 0] ![0, 0] x3 (sitofp (F := Ideal) .f32 (constantI S_ 32 0#32)) pads_S1340x128_S1408x128_0680_000 h_S_) bitsLt_bf16_f32)
      (truncf .bf16 x4 bitsLt_bf16_f32)
    = Host.dotGeneral Cert.ReferenceIdeal.dot_S50000x128_S128x256_S50000x256_1_0_0_1_n_n none
        (Host.gather Cert.ReferenceIdeal.gather_S1340x128_S50000x1_S50000x128_1_0_n_n_0_1_1128 x3
          (broadcastInDim Cert.ReferenceIdeal.S50000x1 ![0] Cert.ReferenceIdeal.Gen.bcast_S50000_S50000x1_0
            (select (cmpi .slt x0 (broadcastInDim Cert.ReferenceIdeal.S50000 ![] Cert.ReferenceIdeal.Gen.bcast_S_S50000 (constantI Cert.ReferenceIdeal.S_ 32 0#32)))
              (addi x0 (broadcastInDim Cert.ReferenceIdeal.S50000 ![] Cert.ReferenceIdeal.Gen.bcast_S_S50000 (constantI Cert.ReferenceIdeal.S_ 32 1340#32)))
              x0)))
        x4 := by
  funext i
  obtain ⟨p, q, rfl⟩ : ∃ p q, i = ix2 p q := ⟨i 0, i 1, eq_ix2 i⟩
  rw [Spec.embedDense_ix2]
  unfold Spec.embedAt
  -- the reference's side: the sum over the 128 features of (gathered row) · w
  show _ = Cert.ReferenceIdeal.ReadP.val_main_v40 (F := Ideal) x0 x3 x4 (ix2 p q)
  rw [Cert.ReferenceIdeal.ReadP.val_main_v40_apply]
  refine Finset.sum_congr rfl fun d _ => ?_
  have e1 : Cert.ReferenceIdeal.ReadP.lidx_main_v40 (ix2 p q) d = ix2 p d := funext fun a => match a with
    | ⟨0, _⟩ => rfl
    | ⟨1, _⟩ => rfl
  have e2 : Cert.ReferenceIdeal.ReadP.ridx_main_v40 (ix2 p q) d = ix2 d q := funext fun a => match a with
    | ⟨0, _⟩ => rfl
    | ⟨1, _⟩ => rfl
  rw [e1, e2]
  show _ = Host.gather G x3 (Cert.ReferenceIdeal.ReadP.val_main_v12 (F := Ideal) x0) (ix2 p d) * x4 (ix2 d q)
  -- the start index at row p is the index word itself: the wrap leaves it alone
  have hidx : Cert.ReferenceIdeal.ReadP.val_main_v12 (F := Ideal) x0 (ix2 p (0 : Fin 1)) = x0 (ix1 p) := by
    rw [Cert.ReferenceIdeal.ReadP.val_main_v12_apply]
    have e3 : Cert.ReferenceIdeal.ReadP.idx_main_v12 (ix2 p (0 : Fin 1)) = ix1 p := funext fun a => match a with
      | ⟨0, _⟩ => rfl
    rw [e3]
    exact wrap_eq _ (hx _).1
  -- the ids column at row p is the same word
  have hids : shapeCast S50000x1 x0 shapeCasts_S50000_S50000x1 (ix2 p (0 : Fin 1)) = x0 (ix1 p) :=
    shapeCast_apply x0 shapeCasts_S50000_S50000x1 _ _ (by
      rw [Shape.rowMajor_val_two, Shape.rowMajor_val_one]; show p.val = p.val * 1 + 0; omega)
  obtain ⟨h0, h1⟩ := hx (ix1 p)
  have hr : (x0 (ix1 p)).toInt.toNat < 1340 := by omega
  -- both sides read the table at row (ids p), feature d
  rw [hids, onehot_row x3 _ h0 hr d,
    gather_row x3 _ p d ⟨(x0 (ix1 p)).toInt.toNat, hr⟩ (by rw [hidx]; show (x0 (ix1 p)).toInt.toNat = min _ 1339; omega)]
  rfl

end Cert.KernelIdeal.Embed

end
-- ==== Proof.DenseArray.lean ====
/-
  Region 1 (bias, rectifier and the second dense layer): what its result array holds after the region.
-/
import proofs.«408785_j66949950210691_1_alg».proof.Proof.Gen.KernelIdeal.Frame
import proofs.«408785_j66949950210691_1_alg».proof.Proof.Spec
import proofs.«408785_j66949950210691_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-! ## The contraction of the block product, axis by axis

The block product contracts axis 1 of its left operand `[2000, 256]` with axis 0 of its right operand `[256, 41]`.
At a result index `i` and a contraction position `q`, the left operand is read at row `i 0`, column `q`, and the
right operand at row `q`, column `i 1`. -/

theorem lhs_row (i : S2000x41.Idx) (q : dot_S2000x256_S256x41_S2000x41_1_0_0_1_n_n.contr.Idx) :
    (dot_S2000x256_S256x41_S2000x41_1_0_0_1_n_n.lhsIdx i q 0).val = (i 0).val := by
  unfold DotDims.lhsIdx
  rw [dif_neg (show ¬(0 : Fin S2000x256.rank) ∈ dot_S2000x256_S256x41_S2000x41_1_0_0_1_n_n.lhsBatch by decide),
    dif_pos (show (0 : Fin S2000x256.rank) ∈ dot_S2000x256_S256x41_S2000x41_1_0_0_1_n_n.lhsNonContracting by decide)]
  rfl
theorem lhs_col (i : S2000x41.Idx) (q : dot_S2000x256_S256x41_S2000x41_1_0_0_1_n_n.contr.Idx) :
    (dot_S2000x256_S256x41_S2000x41_1_0_0_1_n_n.lhsIdx i q 1).val = (q ⟨0, by decide⟩).val :=
  dot_S2000x256_S256x41_S2000x41_1_0_0_1_n_n.lhsIdx_val_of_single rfl i q
theorem rhs_row (i : S2000x41.Idx) (q : dot_S2000x256_S256x41_S2000x41_1_0_0_1_n_n.contr.Idx) :
    (dot_S2000x256_S256x41_S2000x41_1_0_0_1_n_n.rhsIdx i q 0).val = (q ⟨0, by decide⟩).val :=
  dot_S2000x256_S256x41_S2000x41_1_0_0_1_n_n.rhsIdx_val_of_single rfl i q
theorem rhs_col (i : S2000x41.Idx) (q : dot_S2000x256_S256x41_S2000x41_1_0_0_1_n_n.contr.Idx) :
    (dot_S2000x256_S256x41_S2000x41_1_0_0_1_n_n.rhsIdx i q 1).val = (i 1).val := by
  unfold DotDims.rhsIdx
  rw [dif_neg (show ¬(1 : Fin S256x41.rank) ∈ dot_S2000x256_S256x41_S2000x41_1_0_0_1_n_n.rhsBatch by decide),
    dif_pos (show (1 : Fin S256x41.rank) ∈ dot_S2000x256_S256x41_S2000x41_1_0_0_1_n_n.rhsNonContracting by decide)]
  rfl

/-! ## The body's arithmetic at an index -/

/-- The bias row `[1, 256]` spread over the `2000` rows of a block reads, at row `p` and column `k`, the bias at `k`. -/
theorem bias_spread (b : FVec Ideal S1x256 .f32) (p : Fin 2000) (k : Fin 256) :
    broadcastTo S2000x256 b broadcasts_S1x256_S2000x256 (ix2 p k) = b (ix2 (0 : Fin 1) k) :=
  broadcastTo_apply b broadcasts_S1x256_S2000x256 (ix2 p k) (ix2 (0 : Fin 1) k) (fun a => match a with
    | ⟨0, _⟩ => by show ((0 : Fin 1) : Nat) = if (1 : Nat) = 1 then 0 else _; rw [if_pos rfl]; rfl
    | ⟨1, _⟩ => by show (k : Nat) = if (256 : Nat) = 1 then 0 else (k : Nat); rw [if_neg (by decide)])

/-- Row `p`, column `q` of what the body stores: the sum over the `256` hidden features of the rectified, biased
    entry of the block times the weight. -/
theorem body_apply (x0 : Vec Ideal S2000x256 .f32) (x1 : Vec Ideal S1x256 .f32) (x2 : Vec Ideal S256x41 .bf16)
    (p : Fin 2000) (q : Fin 41) :
    k1_pay1 (F := Ideal) x0 x1 x2 (ix2 p q)
      = ∑ k : Fin 256, max (x0 (ix2 p k) + x1 (ix2 (0 : Fin 1) k)) (Ideal.ofBits .f32 0x00000000#32) * x2 (ix2 k q) := by
  unfold k1_pay1
  refine (Ideal.matmul_constant_zero_apply dot_S2000x256_S256x41_S2000x41_1_0_0_1_n_n none _ _ (ix2 p q)).trans ?_
  rw [← Equiv.sum_comp (contrEquiv1 dot_S2000x256_S256x41_S2000x41_1_0_0_1_n_n 256 rfl rfl).symm]
  refine Finset.sum_congr rfl fun k _ => ?_
  have hk := contrEquiv1_symm_val dot_S2000x256_S256x41_S2000x41_1_0_0_1_n_n 256 rfl rfl k
  have el : dot_S2000x256_S256x41_S2000x41_1_0_0_1_n_n.lhsIdx (ix2 p q)
      ((contrEquiv1 dot_S2000x256_S256x41_S2000x41_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x41_S2000x41_1_0_0_1_n_n.rhsIdx (ix2 p q)
      ((contrEquiv1 dot_S2000x256_S256x41_S2000x41_1_0_0_1_n_n 256 rfl rfl).symm k) = ix2 k q := funext fun a => Fin.ext (by
    match a with
    | ⟨0, _⟩ => exact (rhs_row _ _).trans hk
    | ⟨1, _⟩ => exact rhs_col _ _)
  rw [el, er]
  show max (shapeCast S2000x256 x0 shapeCasts_S2000x256_S2000x256 (ix2 p k)
        + broadcastTo S2000x256 (shapeCast S1x256 x1 shapeCasts_S1x256_S1x256) broadcasts_S1x256_S2000x256 (ix2 p k))
      (Ideal.ofBits .f32 0x00000000#32) * shapeCast S256x41 x2 shapeCasts_S256x41_S256x41 (ix2 k q) = _
  have e0 : shapeCast S2000x256 x0 shapeCasts_S2000x256_S2000x256 = x0 := shapeCast_self x0 _
  have e1 : shapeCast S1x256 x1 shapeCasts_S1x256_S1x256 = x1 := shapeCast_self x1 _
  have e2 : shapeCast S256x41 x2 shapeCasts_S256x41_S256x41 = x2 := shapeCast_self x2 _
  rw [e0, e1, e2, bias_spread x1 p k]

/-- The same entry when the three blocks are pieces of whole arrays: if row `p` of the first block is row `r` of
    `agg`, and the other two blocks are the whole bias row and the whole weight matrix, the body's entry at
    `(p, q)` is entry `(r, q)` of `max(agg + b, 0) · w`. -/
theorem body_of_arrays (x0 : Vec Ideal S2000x256 .f32) (x1 : Vec Ideal S1x256 .f32) (x2 : Vec Ideal S256x41 .bf16)
    (agg : S50000x256.Idx → EReal) (b : S1x256.Idx → EReal) (w : S256x41.Idx → EReal)
    (r : Fin 50000) (p : Fin 2000) (q : Fin 41)
    (h0 : ∀ k : Fin 256, x0 (ix2 p k) = agg (ix2 r k))
    (h1 : ∀ k : Fin 256, x1 (ix2 (0 : Fin 1) k) = b (ix2 (0 : Fin 1) k))
    (h2 : ∀ k : Fin 256, x2 (ix2 k q) = w (ix2 k q)) :
    k1_pay1 (F := Ideal) x0 x1 x2 (ix2 p q) = Spec.denseReluAt agg b w r q := by
  refine (body_apply x0 x1 x2 p q).trans ?_
  unfold Spec.denseReluAt
  exact Finset.sum_congr rfl fun k _ => by rw [h0 k, h1 k, h2 k]

/-! ## From blocks to the array -/

theorem zero_offsets : (![0, 0] : Fin 2 → Nat) = fun _ => 0 := funext fun a => by fin_cases a <;> rfl

/-- Where each window's block sits at point `t`: the activations and the result move down one block of `2000` rows
    per point; the bias and the weights stay whole. -/
theorem block_at : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `max(agg + b, 0) · w` of the arrays the region finds. -/
theorem written (c : Dev nD) (t : Fin cfg1.N) :
    (dat1 (F := Ideal) V c).flushed 3 t
      = ((cfg1.win 3).blk t).view.read (Elt Ideal) (Spec.denseRelu (V c main_v51) (V c main_v52) (V c main_v3)) := by
  show (cfg1.win 3).cut (grid1.coords t) ((dat1 (F := Ideal) V c).after 3 t) = _
  rw [after1_3]
  unfold out1_3
  rw [View.canon_unit_zero zero_offsets]
  simp only [View.ld_unit_zero (S := S2000x256) zero_offsets, View.ld_unit_zero (S := S1x256) zero_offsets,
    View.ld_unit_zero (S := S256x41) zero_offsets]
  obtain ⟨a00, a01, b00, b01, w00, w01, o00, o01⟩ := block_at t
  have hN : t.val < 25 := Nat.lt_of_lt_of_eq t.isLt N_1
  funext j
  have hp : (j 0).val < 2000 := (j 0).isLt
  have hq : (j 1).val < 41 := (j 1).isLt
  have hr : t.val * 2000 + (j 0).val < 50000 := by omega
  -- the entry's place inside the block, and the place of the block's entry in the array
  have hj : (cfg1.win 3).xinj (grid1.coords t) j = ix2 (⟨(j 0).val, hp⟩ : Fin 2000) (⟨(j 1).val, hq⟩ : Fin 41) :=
    funext fun a => match a with | ⟨0, _⟩ => rfl | ⟨1, _⟩ => rfl
  have hi : ((cfg1.win 3).blk t).view.emb j
      = ix2 (⟨t.val * 2000 + (j 0).val, hr⟩ : Fin 50000) (⟨(j 1).val, hq⟩ : Fin 41) :=
    funext fun a => Fin.ext (by
      match a with
      | ⟨0, _⟩ => show win1_3.index t (0 : Fin 2) * 2000 + 1 * (j 0).val = t.val * 2000 + (j 0).val; omega
      | ⟨1, _⟩ => show win1_3.index t (1 : Fin 2) * 41 + 1 * (j 1).val = (j 1).val; omega)
  refine ((congrArg (k1_pay1 (F := Ideal) (iblk1 V c 0 t) (iblk1 V c 1 t) (iblk1 V c 2 t)) hj).trans
    ((body_of_arrays (iblk1 V c 0 t) (iblk1 V c 1 t) (iblk1 V c 2 t) (V c main_v51) (V c main_v52) (V c main_v3)
      ⟨t.val * 2000 + (j 0).val, hr⟩ ⟨(j 0).val, hp⟩ ⟨(j 1).val, hq⟩ ?_ ?_ ?_).trans ?_))
  · -- row `j 0` of the activations' block at `t` is row `2000 t + j 0` of the activations
    intro k
    show V c main_v51 (((cfg1.win 0).blk t).view.emb (ix2 (⟨(j 0).val, hp⟩ : Fin 2000) k))
      = V c main_v51 (ix2 (⟨t.val * 2000 + (j 0).val, hr⟩ : Fin 50000) k)
    refine congrArg (V c main_v51) (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 256 + 1 * k.val = k.val; omega
  · -- the bias block is the whole bias row
    intro k
    show V c main_v52 (((cfg1.win 1).blk t).view.emb (ix2 (0 : Fin 1) k)) = V c main_v52 (ix2 (0 : Fin 1) k)
    refine congrArg (V c main_v52) (funext fun a => Fin.ext ?_)
    match a with
    | ⟨0, _⟩ => show win1_1.index t (0 : Fin 2) * 1 + 1 * ((0 : Fin 1) : Nat) = ((0 : Fin 1) : Nat); omega
    | ⟨1, _⟩ => show win1_1.index t (1 : Fin 2) * 256 + 1 * k.val = k.val; omega
  · -- the weights' block is the whole weight matrix
    intro k
    show V c main_v3 (((cfg1.win 2).blk t).view.emb (ix2 k (⟨(j 1).val, hq⟩ : Fin 41)))
      = V c main_v3 (ix2 k (⟨(j 1).val, hq⟩ : Fin 41))
    refine congrArg (V c main_v3) (funext fun a => Fin.ext ?_)
    match a with
    | ⟨0, _⟩ => show win1_2.index t (0 : Fin 2) * 256 + 1 * k.val = k.val; omega
    | ⟨1, _⟩ => show win1_2.index t (1 : Fin 2) * 41 + 1 * (j 1).val = (j 1).val; omega
  · exact (congrArg (Spec.denseRelu (V c main_v51) (V c main_v52) (V c main_v3)) hi).symm

/-- An index of the result array is in point `t`'s block iff each coordinate is in the block's range on its axis. -/
theorem mem_block (t : Fin cfg1.N) (i : S50000x41.Idx) :
    i ∈ ((cfg1.win 3).blk t).view.set
      ↔ ∀ a : Fin 2, win1_3.index t a * S2000x41.size a ≤ (i a).val
          ∧ (i a).val < win1_3.index t a * S2000x41.size a + S2000x41.size a := by
  show i ∈ ((View.whole main_v53).slice (win1_3.rect t)).set ↔ _
  rw [View.set_slice_whole, Rect.mem_set_unit]
  exact Iff.rfl

/-- Every row of the result is written: row `r` lies in the block of point `r / 2000`. -/
theorem rows_covered (i : S50000x41.Idx) :
    ∃ t : Fin cfg1.N, (cfg1.win 3).flush t = true ∧ i ∈ ((cfg1.win 3).blk t).view.set := by
  have hi0 : (i 0).val < 50000 := (i 0).isLt
  have hi1 : (i 1).val < 41 := (i 1).isLt
  obtain ⟨t, ht⟩ : ∃ t : Fin cfg1.N, t.val = (i 0).val / 2000 :=
    ⟨⟨(i 0).val / 2000, Nat.lt_of_lt_of_eq (by omega : (i 0).val / 2000 < 25) N_1.symm⟩, rfl⟩
  obtain ⟨-, -, -, -, -, -, o00, o01⟩ := block_at t
  refine ⟨t, flush1_3 t, ?_⟩
  rw [mem_block]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 41 ≤ (i 1).val ∧ (i 1).val < win1_3.index t (1 : Fin 2) * 41 + 41
    omega

/-- After region 1 its result array is `max(agg + b, 0) · w` of the three arrays the region finds. -/
theorem array (c : Dev nD) :
    (dat1 (F := Ideal) V c).arrAt 3 cfg1.N = Spec.denseRelu (V c main_v51) (V c main_v52) (V c main_v3) :=
  (dat1 (F := Ideal) V c).arrAt_eq_of_cover 3 (Spec.denseRelu (V c main_v51) (V c main_v52) (V c main_v3))
    (fun t _ => written V c t) rows_covered

end Cert.KernelIdeal.Dense

end
-- ==== Proof.DenseBridge.lean ====
/-
  The bias, rectifier and dense layer index by index against the reference's host operations.
-/
import proofs.«408785_j66949950210691_1_alg».proof.Proof.Gen.KernelIdeal.Frame
import proofs.«408785_j66949950210691_1_alg».proof.Proof.Spec
import proofs.«408785_j66949950210691_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense

open Cert.KernelIdeal Cert.KernelIdeal.Gen

/-! ## The contraction of the reference's product, axis by axis

The reference contracts axis 1 of `[50000, 256]` with axis 0 of `[256, 41]`: at a result index `i` and a contraction
position `q` the left operand is read at row `i 0`, column `q`, the right operand at row `q`, column `i 1`. -/

theorem ref_lhs_row (i : Cert.ReferenceIdeal.S50000x41.Idx)
    (q : Cert.ReferenceIdeal.dot_S50000x256_S256x41_S50000x41_1_0_0_1_n_n.contr.Idx) :
    (Cert.ReferenceIdeal.dot_S50000x256_S256x41_S50000x41_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x41_S50000x41_1_0_0_1_n_n.lhsBatch by decide),
    dif_pos (show (0 : Fin Cert.ReferenceIdeal.S50000x256.rank) ∈ Cert.ReferenceIdeal.dot_S50000x256_S256x41_S50000x41_1_0_0_1_n_n.lhsNonContracting by decide)]
  rfl
theorem ref_lhs_col (i : Cert.ReferenceIdeal.S50000x41.Idx)
    (q : Cert.ReferenceIdeal.dot_S50000x256_S256x41_S50000x41_1_0_0_1_n_n.contr.Idx) :
    (Cert.ReferenceIdeal.dot_S50000x256_S256x41_S50000x41_1_0_0_1_n_n.lhsIdx i q 1).val = (q ⟨0, by decide⟩).val :=
  Cert.ReferenceIdeal.dot_S50000x256_S256x41_S50000x41_1_0_0_1_n_n.lhsIdx_val_of_single rfl i q
theorem ref_rhs_row (i : Cert.ReferenceIdeal.S50000x41.Idx)
    (q : Cert.ReferenceIdeal.dot_S50000x256_S256x41_S50000x41_1_0_0_1_n_n.contr.Idx) :
    (Cert.ReferenceIdeal.dot_S50000x256_S256x41_S50000x41_1_0_0_1_n_n.rhsIdx i q 0).val = (q ⟨0, by decide⟩).val :=
  Cert.ReferenceIdeal.dot_S50000x256_S256x41_S50000x41_1_0_0_1_n_n.rhsIdx_val_of_single rfl i q
theorem ref_rhs_col (i : Cert.ReferenceIdeal.S50000x41.Idx)
    (q : Cert.ReferenceIdeal.dot_S50000x256_S256x41_S50000x41_1_0_0_1_n_n.contr.Idx) :
    (Cert.ReferenceIdeal.dot_S50000x256_S256x41_S50000x41_1_0_0_1_n_n.rhsIdx i q 1).val = (i 1).val := by
  unfold DotDims.rhsIdx
  rw [dif_neg (show ¬(1 : Fin Cert.ReferenceIdeal.S256x41.rank) ∈ Cert.ReferenceIdeal.dot_S50000x256_S256x41_S50000x41_1_0_0_1_n_n.rhsBatch by decide),
    dif_pos (show (1 : Fin Cert.ReferenceIdeal.S256x41.rank) ∈ Cert.ReferenceIdeal.dot_S50000x256_S256x41_S50000x41_1_0_0_1_n_n.rhsNonContracting by decide)]
  rfl

/-! ## The bias and the zero, read at an index -/

/-- The bias reshaped to a row `[1, 256]` reads, at column `k`, the bias at `k`. -/
theorem bias_as_row (x5 : FVec Ideal S256 .f32) (k : Fin 256) :
    shapeCast S1x256 x5 shapeCasts_S256_S1x256 (ix2 (0 : Fin 1) k) = x5 (ix1 k) :=
  shapeCast_apply x5 shapeCasts_S256_S1x256 (ix2 (0 : Fin 1) k) (ix1 k) (by
    rw [Shape.rowMajor_val_one, Shape.rowMajor_val_two]
    show (k : Nat) = 0 * 256 + (k : Nat)
    omega)

/-- The bias spread first to a row and then over all `50000` rows reads, at row `p` and column `k`, the bias at `k`. -/
theorem bias_over_rows (x5 : FVec Ideal S256 .f32) (p : Fin 50000) (k : Fin 256) :
    broadcastInDim Cert.ReferenceIdeal.S50000x256 ![0, 1] Cert.ReferenceIdeal.Gen.bcast_S1x256_S50000x256_0_1
      (broadcastInDim Cert.ReferenceIdeal.S1x256 ![1] Cert.ReferenceIdeal.Gen.bcast_S256_S1x256_1 x5) (ix2 p k)
      = x5 (ix1 k) := by
  refine (broadcastInDim_apply _ Cert.ReferenceIdeal.Gen.bcast_S1x256_S50000x256_0_1
    (broadcastInDim Cert.ReferenceIdeal.S1x256 ![1] Cert.ReferenceIdeal.Gen.bcast_S256_S1x256_1 x5)
    (ix2 p k) (ix2 (0 : Fin 1) k) (fun a => match a with
      | ⟨0, _⟩ => by show ((0 : Fin 1) : Nat) = if (1 : Nat) = 1 then 0 else _; rw [if_pos rfl]; rfl
      | ⟨1, _⟩ => by show (k : Nat) = if (256 : Nat) = 1 then 0 else (k : Nat); rw [if_neg (by decide)])).trans ?_
  exact broadcastInDim_apply _ Cert.ReferenceIdeal.Gen.bcast_S256_S1x256_1 x5 (ix2 (0 : Fin 1) k) (ix1 k) (fun a => match a with
    | ⟨0, _⟩ => by show (k : Nat) = if (256 : Nat) = 1 then 0 else (k : Nat); rw [if_neg (by decide)])

/-- The zero constant spread over the array reads the zero word everywhere. -/
theorem zero_over_rows (p : Fin 50000) (k : Fin 256) :
    broadcastInDim Cert.ReferenceIdeal.S50000x256 ![] Cert.ReferenceIdeal.Gen.bcast_S_S50000x256
      (constant (F := Ideal) Cert.ReferenceIdeal.S_ .f32 0x00000000#32) (ix2 p k)
      = Ideal.ofBits .f32 0x00000000#32 :=
  broadcastInDim_apply _ Cert.ReferenceIdeal.Gen.bcast_S_S50000x256
    (constant (F := Ideal) Cert.ReferenceIdeal.S_ .f32 0x00000000#32) (ix2 p k) ix0 (fun a => a.elim0)

/-- `max(agg + b, 0) · w` read index by index is the reference's `dot_general` of the rectified, biased array:
    the same sum of products over the `256` hidden features. -/
theorem bridge (a : FVec Ideal S50000x256 .f32) (x5 : FVec Ideal S256 .f32) (x6 : FVec Ideal S256x41 .f32) :
    Spec.denseRelu a (shapeCast S1x256 x5 shapeCasts_S256_S1x256) (truncf .bf16 x6 bitsLt_bf16_f32)
    = Host.dotGeneral Cert.ReferenceIdeal.dot_S50000x256_S256x41_S50000x41_1_0_0_1_n_n none
        (maximumf
          (addf a (broadcastInDim Cert.ReferenceIdeal.S50000x256 ![0, 1] Cert.ReferenceIdeal.Gen.bcast_S1x256_S50000x256_0_1
            (broadcastInDim Cert.ReferenceIdeal.S1x256 ![1] Cert.ReferenceIdeal.Gen.bcast_S256_S1x256_1 x5)))
          (broadcastInDim Cert.ReferenceIdeal.S50000x256 ![] Cert.ReferenceIdeal.Gen.bcast_S_S50000x256
            (constant (F := Ideal) Cert.ReferenceIdeal.S_ .f32 0x00000000#32)))
        x6 := by
  funext i
  obtain ⟨p, q, rfl⟩ : ∃ (p : Fin 50000) (q : Fin 41), i = ix2 p q := ⟨i 0, i 1, eq_ix2 i⟩
  -- both sides are the same sum over the hidden features
  refine Eq.trans (?_ : _ = ∑ k : Fin 256,
      max (a (ix2 p k) + x5 (ix1 k)) (Ideal.ofBits .f32 0x00000000#32) * x6 (ix2 k q)) (Eq.symm ?_)
  · show Spec.denseReluAt a (shapeCast S1x256 x5 shapeCasts_S256_S1x256) (truncf .bf16 x6 bitsLt_bf16_f32) p q = _
    unfold Spec.denseReluAt
    exact Finset.sum_congr rfl fun k _ =>
      congrArg (fun y => max (a (ix2 p k) + y) (Ideal.ofBits .f32 0x00000000#32) * x6 (ix2 k q)) (bias_as_row x5 k)
  · simp only [Host.dotGeneral]
    refine (Ideal.dotGeneral_apply Cert.ReferenceIdeal.dot_S50000x256_S256x41_S50000x41_1_0_0_1_n_n none .single _ x6 (ix2 p q)).trans ?_
    rw [← Equiv.sum_comp (contrEquiv1 Cert.ReferenceIdeal.dot_S50000x256_S256x41_S50000x41_1_0_0_1_n_n 256 rfl rfl).symm]
    refine Finset.sum_congr rfl fun k _ => ?_
    have hk := contrEquiv1_symm_val Cert.ReferenceIdeal.dot_S50000x256_S256x41_S50000x41_1_0_0_1_n_n 256 rfl rfl k
    have el : Cert.ReferenceIdeal.dot_S50000x256_S256x41_S50000x41_1_0_0_1_n_n.lhsIdx (ix2 p q)
        ((contrEquiv1 Cert.ReferenceIdeal.dot_S50000x256_S256x41_S50000x41_1_0_0_1_n_n 256 rfl rfl).symm k) = ix2 p k :=
      funext fun a => Fin.ext (by
        match a with
        | ⟨0, _⟩ => exact ref_lhs_row _ _
        | ⟨1, _⟩ => exact (ref_lhs_col _ _).trans hk)
    have er : Cert.ReferenceIdeal.dot_S50000x256_S256x41_S50000x41_1_0_0_1_n_n.rhsIdx (ix2 p q)
        ((contrEquiv1 Cert.ReferenceIdeal.dot_S50000x256_S256x41_S50000x41_1_0_0_1_n_n 256 rfl rfl).symm k) = ix2 k q :=
      funext fun a => Fin.ext (by
        match a with
        | ⟨0, _⟩ => exact (ref_rhs_row _ _).trans hk
        | ⟨1, _⟩ => exact ref_rhs_col _ _)
    rw [el, er]
    show max (a (ix2 p k)
          + broadcastInDim Cert.ReferenceIdeal.S50000x256 ![0, 1] Cert.ReferenceIdeal.Gen.bcast_S1x256_S50000x256_0_1
              (broadcastInDim Cert.ReferenceIdeal.S1x256 ![1] Cert.ReferenceIdeal.Gen.bcast_S256_S1x256_1 x5) (ix2 p k))
        (broadcastInDim Cert.ReferenceIdeal.S50000x256 ![] Cert.ReferenceIdeal.Gen.bcast_S_S50000x256
          (constant (F := Ideal) Cert.ReferenceIdeal.S_ .f32 0x00000000#32) (ix2 p k)) * x6 (ix2 k q) = _
    rw [bias_over_rows x5 p k, zero_over_rows p k]

end Cert.KernelIdeal.Dense

end
-- ==== Proof.PoolArray.lean ====
/-
  Region 2 (the segment sum as a one-hot product accumulated over the grid): what its result array holds after
  the region.
-/
import proofs.«408785_j66949950210691_1_alg».proof.Proof.Gen.KernelIdeal.Frame
import proofs.«408785_j66949950210691_1_alg».proof.Proof.Spec
import proofs.«408785_j66949950210691_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen

variable (V : (c : Dev nD) → (b : Ref sig .tc) → Buf (Elt Ideal) ((c : Thread nD τ).loc b))

section Cases
variable {F : FTy → Type} [FloatOps F]

theorem hz : (![0, 0] : Fin 2 → Nat) = fun _ => 0 := funext fun a => by fin_cases a <;> rfl

/-- A later point adds the block's partial product to what the staging buffer holds. -/
theorem caseB_value (c : Dev nD) (i : grid2.Coords) (a1 : Memref sig .tc .vmem S2000x1 .i32) (h1 : a1.IsWhole)
    (a2 : Memref sig .tc .vmem S2000x41 .f32) (h2 : a2.IsWhole) (a3 : Memref sig .tc .vmem S512x41 .f32) (h3 : a3.IsWhole)
    (hc : ¬cond2_0 i) (x0 : Vec F S2000x1 .i32) (x1 : Vec F S2000x41 .f32) (xo : Vec F S512x41 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  rw [View.canon_unit_zero hz]
  simp only [View.readAt_eq_ld, h1.read_unread, h2.read_unread, h3.read_unread, View.ld_unit_zero (S := S2000x1) hz,
    View.ld_unit_zero (S := S2000x41) hz, View.ld_unit_zero (S := S512x41) hz]

/-- The first point stores the zero block and then adds the block's partial product to it. -/
theorem caseA_value (c : Dev nD) (i : grid2.Coords) (a1 : Memref sig .tc .vmem S2000x1 .i32) (h1 : a1.IsWhole)
    (a2 : Memref sig .tc .vmem S2000x41 .f32) (h2 : a2.IsWhole) (a3 : Memref sig .tc .vmem S512x41 .f32) (h3 : a3.IsWhole)
    (hc : cond2_0 i) (x0 : Vec F S2000x1 .i32) (x1 : Vec F S2000x41 .f32) :
    out2_A_2 c i a1 h1 a2 h2 a3 h3 hc x0 x1 = k2_pay2 x0 x1 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S512x41) hz, View.readCov_unit_zero (S := S512x41) _ hz]
  simp only [View.readAt_eq_ld, h1.read_unread, h2.read_unread, View.ld_unit_zero (S := S2000x1) hz,
    View.ld_unit_zero (S := S2000x41) hz]

end Cases

section Payload

/-- A one-bit word widened to 32 bits and read signed is its bit. -/
theorem toInt_widen_bit : ∀ b : BitVec 1, (b.setWidth 32).toInt = if b = 1#1 then 1 else 0 := by decide

/-- A comparison of two words for equality, widened and converted to a float, is the one-hot entry. -/
theorem hot_of_cmpi (a b : BitVec 32) :
    (FloatOps.sitofp (F := Ideal) .f32 ((IntOp.cmpi .eq a b).setWidth 32) : Ideal .f32) = Spec.hot a b := by
  show (((((IntOp.cmpi .eq a b).setWidth 32).toInt : ℤ) : ℝ) : EReal) = Spec.hot a b
  rw [toInt_widen_bit]
  unfold Spec.hot
  by_cases h : a = b
  · have hb : IntOp.cmpi .eq a b = 1#1 := by
      unfold IntOp.cmpi; rw [h]; simp
    rw [if_pos hb, if_pos h]; norm_num
  · have hb : ¬IntOp.cmpi .eq a b = 1#1 := by
      show ¬BitVec.ofBool (a == b) = 1#1
      rw [show (a == b) = false from by simpa using h]
      decide
    rw [if_neg hb, if_neg h]; norm_num

theorem lhs_pool_0 (i : S512x41.Idx) (k : dot_S2000x512_S2000x41_S512x41_0_0_1_1_n_n.contr.Idx) :
    (dot_S2000x512_S2000x41_S512x41_0_0_1_1_n_n.lhsIdx i k 0).val = (k ⟨0, by decide⟩).val :=
  dot_S2000x512_S2000x41_S512x41_0_0_1_1_n_n.lhsIdx_val_of_single rfl i k
theorem lhs_pool_1 (i : S512x41.Idx) (k : dot_S2000x512_S2000x41_S512x41_0_0_1_1_n_n.contr.Idx) :
    (dot_S2000x512_S2000x41_S512x41_0_0_1_1_n_n.lhsIdx i k 1).val = (i 0).val := by
  unfold DotDims.lhsIdx
  rw [dif_neg (show ¬(1 : Fin S2000x512.rank) ∈ dot_S2000x512_S2000x41_S512x41_0_0_1_1_n_n.lhsBatch by decide), dif_pos (show (1 : Fin S2000x512.rank) ∈ dot_S2000x512_S2000x41_S512x41_0_0_1_1_n_n.lhsNonContracting by decide)]
  rfl
theorem rhs_pool_0 (i : S512x41.Idx) (k : dot_S2000x512_S2000x41_S512x41_0_0_1_1_n_n.contr.Idx) :
    (dot_S2000x512_S2000x41_S512x41_0_0_1_1_n_n.rhsIdx i k 0).val = (k ⟨0, by decide⟩).val :=
  dot_S2000x512_S2000x41_S512x41_0_0_1_1_n_n.rhsIdx_val_of_single rfl i k
theorem rhs_pool_1 (i : S512x41.Idx) (k : dot_S2000x512_S2000x41_S512x41_0_0_1_1_n_n.contr.Idx) :
    (dot_S2000x512_S2000x41_S512x41_0_0_1_1_n_n.rhsIdx i k 1).val = (i 1).val := by
  unfold DotDims.rhsIdx
  rw [dif_neg (show ¬(1 : Fin S2000x41.rank) ∈ dot_S2000x512_S2000x41_S512x41_0_0_1_1_n_n.rhsBatch by decide), dif_pos (show (1 : Fin S2000x41.rank) ∈ dot_S2000x512_S2000x41_S512x41_0_0_1_1_n_n.rhsNonContracting by decide)]
  rfl

/-- The one-hot operand of the product at row `r`, lane `g`: the entry for the row's segment word and `g`. -/
theorem onehot_apply (s : Vec Ideal S2000x1 .i32) (r : Fin 2000) (g : Fin 512) :
    (truncf .bf16 (sitofp .f32 (extui 32 (cmpi .eq
        (broadcastTo S2000x512 (shapeCast S2000x1 s shapeCasts_S2000x1_S2000x1) broadcasts_S2000x1_S2000x512)
        (broadcastTo S2000x512 (iota .tc S1x512 32 [1] iota_S1x512_d1_w32) broadcasts_S1x512_S2000x512)) natLt_1_32)
          : FVec Ideal S2000x512 .f32) bitsLt_bf16_f32 : FVec Ideal S2000x512 .bf16) (ix2 r g)
      = Spec.hot (s (ix2 r (0 : Fin 1))) (BitVec.ofNat 32 g.val) := by
  refine Eq.trans ?_ (hot_of_cmpi _ _)
  show FloatOps.sitofp (F := Ideal) .f32 ((IntOp.cmpi .eq _ _).setWidth 32) = _
  congr 3
  · refine (broadcastTo_apply _ broadcasts_S2000x1_S2000x512 (ix2 r g) (ix2 r (0 : Fin 1)) (fun a => ?_)).trans ?_
    · match a with
      | ⟨0, _⟩ => rfl
      | ⟨1, _⟩ => rfl
    · exact congrFun (shapeCast_self s shapeCasts_S2000x1_S2000x1) _
  · refine (broadcastTo_apply _ broadcasts_S1x512_S2000x512 (ix2 r g) (ix2 (0 : Fin 1) g) (fun a => ?_)).trans ?_
    · match a with
      | ⟨0, _⟩ => rfl
      | ⟨1, _⟩ => rfl
    · exact iota_single_apply .tc S1x512 32 1 iota_S1x512_d1_w32 (ix2 (0 : Fin 1) g)

/-- The body's update read at row `g`, column `q` of the result block: the accumulator's entry plus the sum over the
    block's `2000` rows of the one-hot entry times the row's value. -/
theorem update_apply (s : Vec Ideal S2000x1 .i32) (x : Vec Ideal S2000x41 .f32) (acc : Vec Ideal S512x41 .f32)
    (g : Fin 512) (q : Fin 41) :
    k2_pay2 (F := Ideal) s x acc (ix2 g q)
      = acc (ix2 g q) + ∑ r : Fin 2000, Spec.hot (s (ix2 r (0 : Fin 1))) (BitVec.ofNat 32 g.val) * x (ix2 r q) := by
  unfold k2_pay2
  refine (addf_apply _ _ (ix2 g q)).trans ?_
  refine congrArg₂ (· + ·) (congrFun (shapeCast_self acc shapeCasts_S512x41_S512x41) _) ?_
  refine (Ideal.matmul_constant_zero_apply dot_S2000x512_S2000x41_S512x41_0_0_1_1_n_n none _ _ (ix2 g q)).trans ?_
  rw [← Equiv.sum_comp (contrEquiv1 dot_S2000x512_S2000x41_S512x41_0_0_1_1_n_n 2000 rfl rfl).symm]
  refine Finset.sum_congr rfl fun r _ => ?_
  have hk := contrEquiv1_symm_val dot_S2000x512_S2000x41_S512x41_0_0_1_1_n_n 2000 rfl rfl r
  have el : dot_S2000x512_S2000x41_S512x41_0_0_1_1_n_n.lhsIdx (ix2 g q) ((contrEquiv1 dot_S2000x512_S2000x41_S512x41_0_0_1_1_n_n 2000 rfl rfl).symm r) = ix2 r g := funext fun a => Fin.ext (by
    match a with
    | ⟨0, _⟩ => exact (lhs_pool_0 _ _).trans hk
    | ⟨1, _⟩ => exact lhs_pool_1 _ _)
  have er : dot_S2000x512_S2000x41_S512x41_0_0_1_1_n_n.rhsIdx (ix2 g q) ((contrEquiv1 dot_S2000x512_S2000x41_S512x41_0_0_1_1_n_n 2000 rfl rfl).symm r) = ix2 r q := funext fun a => Fin.ext (by
    match a with
    | ⟨0, _⟩ => exact (rhs_pool_0 _ _).trans hk
    | ⟨1, _⟩ => exact rhs_pool_1 _ _)
  rw [el, er]
  refine congrArg₂ (· * ·) (onehot_apply s r g) ?_
  exact congrFun (shapeCast_self x shapeCasts_S2000x41_S2000x41) _

end Payload

section Rows

/-- A sum over the `50000` rows is the sum over the `25` blocks of the sums over a block's `2000` rows. -/
theorem sum_rows {M : Type*} [AddCommMonoid M] (f : Fin 50000 → M) :
    ∑ n : Fin 50000, f n
      = ∑ t : Fin 25, ∑ r : Fin 2000, f ⟨2000 * t.val + r.val, by have := t.isLt; have := r.isLt; omega⟩ := by
  refine Eq.trans (Equiv.sum_comp (finProdFinEquiv (m := 25) (n := 2000)) f).symm ?_
  rw [Fintype.sum_prod_type]
  refine Finset.sum_congr rfl fun t _ => Finset.sum_congr rfl fun r _ => congrArg f (Fin.ext ?_)
  show r.val + 2000 * t.val = 2000 * t.val + r.val
  omega

end Rows

section Array

/-- The region's two input arrays, and their blocks at a point, at their literal types. -/
abbrev segArr (c : Dev nD) : Vec Ideal S50000x1 .i32 := V c main_v70
abbrev xArr (c : Dev nD) : Vec Ideal S50000x41 .f32 := V c main_v69
abbrev segBlk (c : Dev nD) (t : Fin cfg2.N) : Vec Ideal S2000x1 .i32 := iblk2 V c 0 t
abbrev xBlk (c : Dev nD) (t : Fin cfg2.N) : Vec Ideal S2000x41 .f32 := iblk2 V c 1 t

/-- Both input windows sit on block row `t`, block column `0` at point `t`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, win2_0.index t (0 : Fin 2) = t.val ∧ win2_0.index t (1 : Fin 2) = 0
    ∧ win2_1.index t (0 : Fin 2) = t.val ∧ win2_1.index t (1 : Fin 2) = 0)

/-- Row `r` of the segment block at point `t` is row `2000 t + r` of the segment array. -/
theorem segBlk_apply (c : Dev nD) (t : Fin cfg2.N) (r : Fin 2000) (hn : 2000 * t.val + r.val < 50000) :
    segBlk V c t (ix2 r (0 : Fin 1)) = segArr V c (ix2 (⟨2000 * t.val + r.val, hn⟩ : Fin 50000) (0 : Fin 1)) := by
  obtain ⟨e0, e1, -, -⟩ := idx_facts t
  show V c main_v70 (((cfg2.win 0).blk t).view.emb (ix2 r (0 : Fin 1))) = V c main_v70 _
  refine congrArg (V c main_v70) (funext fun a => Fin.ext ?_)
  match a with
  | ⟨0, _⟩ => show win2_0.index t (0 : Fin 2) * 2000 + 1 * r.val = 2000 * t.val + r.val; omega
  | ⟨1, _⟩ => show win2_0.index t (1 : Fin 2) * 1 + 1 * 0 = 0; omega

/-- Row `r`, column `q` of the value block at point `t` is row `2000 t + r`, column `q` of the value array. -/
theorem xBlk_apply (c : Dev nD) (t : Fin cfg2.N) (r : Fin 2000) (q : Fin 41) (hn : 2000 * t.val + r.val < 50000) :
    xBlk V c t (ix2 r q) = xArr V c (ix2 (⟨2000 * t.val + r.val, hn⟩ : Fin 50000) q) := by
  obtain ⟨-, -, e2, e3⟩ := idx_facts t
  show V c main_v69 (((cfg2.win 1).blk t).view.emb (ix2 r q)) = V c main_v69 _
  refine congrArg (V c main_v69) (funext fun a => Fin.ext ?_)
  match a with
  | ⟨0, _⟩ => show win2_1.index t (0 : Fin 2) * 2000 + 1 * r.val = 2000 * t.val + r.val; omega
  | ⟨1, _⟩ => show win2_1.index t (1 : Fin 2) * 41 + 1 * q.val = q.val; omega

/-- What the block at point `t` adds to row `g`, column `q` of the result; nothing past the grid. -/
def blockSum (c : Dev nD) (g : Fin 512) (q : Fin 41) (t : ℕ) : EReal :=
  if h : t < cfg2.N then
    ∑ r : Fin 2000, Spec.hot (segBlk V c ⟨t, h⟩ (ix2 r (0 : Fin 1))) (BitVec.ofNat 32 g.val) * xBlk V c ⟨t, h⟩ (ix2 r q)
  else 0

/-- After point `n` the staging buffer holds the zero plus the sums of the blocks `0` to `n`: by induction on the point. -/
theorem outsAt_apply (c : Dev nD) (g : Fin 512) (q : Fin 41) : ∀ (n : ℕ) (h : n < cfg2.N),
    outsAt2 V c n h (ix2 g q)
      = Ideal.ofBits .f32 0x00000000#32 + ∑ t ∈ Finset.range (n + 1), blockSum V c g q t
  | 0, h => by
    refine (congrFun (outsAt2_A V c ⟨0, h⟩ (Nat.zero_mod 25)) (ix2 g q)).trans ?_
    refine (congrFun (caseA_value (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) ((hcond2_0 ⟨0, h⟩).mpr (Nat.zero_mod 25)) (segBlk V c ⟨0, h⟩) (xBlk V c ⟨0, h⟩)) (ix2 g q)).trans ?_
    refine (update_apply (segBlk V c ⟨0, h⟩) (xBlk V c ⟨0, h⟩) (k2_pay1 (F := Ideal)) g q).trans ?_
    rw [Finset.sum_range_one]
    unfold blockSum
    rw [dif_pos h]
    rfl
  | n + 1, h => by
    have hN : cfg2.N = 25 := N_2
    have hB : ¬(⟨n + 1, h⟩ : Fin cfg2.N).val % 25 = 0 := by dsimp only; omega
    refine (congrFun (outsAt2_B V c ⟨n + 1, h⟩ hB) (ix2 g q)).trans ?_
    refine (congrFun (caseB_value (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (fun hh => hB ((hcond2_0 ⟨n + 1, h⟩).mp hh)) (segBlk V c ⟨n + 1, h⟩) (xBlk V c ⟨n + 1, h⟩)
      (outsAt2 V c n (Nat.lt_of_succ_lt h))) (ix2 g q)).trans ?_
    refine (update_apply (segBlk V c ⟨n + 1, h⟩) (xBlk V c ⟨n + 1, h⟩) (outsAt2 V c n (Nat.lt_of_succ_lt h)) g q).trans ?_
    rw [outsAt_apply c g q n (Nat.lt_of_succ_lt h), Finset.sum_range_succ _ (n + 1), ← add_assoc]
    refine congrArg (fun z : EReal => (Ideal.ofBits .f32 0x00000000#32 + ∑ t ∈ Finset.range (n + 1), blockSum V c g q t) + z) ?_
    unfold blockSum
    rw [dif_pos h]

/-- The `25` block sums are the sum over all `50000` rows. -/
theorem blocks_total (c : Dev nD) (g : Fin 512) (q : Fin 41) :
    ∑ t ∈ Finset.range 25, blockSum V c g q t = Spec.poolAt (segArr V c) (xArr V c) g q := by
  have hN : cfg2.N = 25 := N_2
  unfold Spec.poolAt
  rw [sum_rows, Finset.sum_range]
  refine Finset.sum_congr rfl fun t _ => ?_
  have ht : t.val < cfg2.N := by rw [hN]; exact t.isLt
  unfold blockSum
  rw [dif_pos ht]
  refine Finset.sum_congr rfl fun r _ => ?_
  have hn : 2000 * t.val + r.val < 50000 := by have := t.isLt; have := r.isLt; omega
  rw [segBlk_apply V c ⟨t.val, ht⟩ r hn, xBlk_apply V c ⟨t.val, ht⟩ r q hn]

/-- The last point of the grid. -/
abbrev tLast : Fin cfg2.N := ⟨24, by rw [show cfg2.N = 25 from N_2]; decide⟩

/-- After the last point the staging buffer holds the segment sums of the whole arrays. -/
theorem outsAt_last (c : Dev nD) :
    outsAt2 V c (tLast).val (tLast).isLt = Spec.pool (segArr V c) (xArr V c) := by
  funext i
  obtain ⟨g, q, rfl⟩ : ∃ (g : Fin 512) (q : Fin 41), i = ix2 g q := ⟨i 0, i 1, eq_ix2 i⟩
  refine (outsAt_apply V c g q 24 (tLast).isLt).trans ?_
  rw [Spec.pool_ix2, ← blocks_total V c g q, Ideal.ofBits_zero_f32, zero_add]

end Array

section Final

/-- The result window never moves: it sits on block `(0, 0)` at every point. -/
theorem res_idx : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)

/-- The one write-back, at the last point, writes the segment sums: the result window's one block is the array. -/
theorem flushed_eq (c : Dev nD) (t : Fin cfg2.N) (hf : (cfg2.win 2).flush t = true) :
    (dat2 (F := Ideal) V c).flushed 2 t
      = ((cfg2.win 2).blk t).view.read (Elt Ideal) (Spec.pool (segArr V c) (xArr V c)) := by
  have hN : cfg2.N = 25 := N_2
  have h24 : t.val = 24 := by have := (flush2_2 t).mp hf; have := t.isLt; omega
  obtain rfl : t = tLast := Fin.ext h24
  show (cfg2.win 2).cut (grid2.coords tLast) ((dat2 (F := Ideal) V c).after 2 tLast) = _
  rw [after2_2, outsAt_last]
  obtain ⟨r0, r1⟩ := res_idx tLast
  have hoff : (fun a => win2_2.index tLast a * main_v71.ty.shape.size a) = fun _ => 0 := funext fun a => by
    match a with
    | ⟨0, _⟩ => show win2_2.index tLast (0 : Fin 2) * 512 = 0; omega
    | ⟨1, _⟩ => show win2_2.index tLast (1 : Fin 2) * 41 = 0; omega
  exact (Memref.read_access_unit_zero (Elt Ideal) main_v71 hoff (fun a => by rw [congrFun hoff a]; simp)
    (Spec.pool (segArr V c) (xArr V c))).symm

/-- Every index of the result array lies in the block the last point writes back. -/
theorem mem_last (i : S512x41.Idx) : i ∈ ((cfg2.win 2).blk tLast).view.set := by
  show i ∈ ((View.whole main_v71).slice (win2_2.rect tLast)).set
  rw [View.set_slice_whole, Rect.mem_set_unit]
  obtain ⟨r0, r1⟩ := res_idx tLast
  have h0 : (i 0).val < 512 := idx2_lt0 i
  have h1 : (i 1).val < 41 := idx2_lt1 i
  intro a
  match a with
  | ⟨0, _⟩ =>
    show win2_2.index tLast (0 : Fin 2) * 512 ≤ (i 0).val ∧ (i 0).val < win2_2.index tLast (0 : Fin 2) * 512 + 512
    omega
  | ⟨1, _⟩ =>
    show win2_2.index tLast (1 : Fin 2) * 41 ≤ (i 1).val ∧ (i 1).val < win2_2.index tLast (1 : Fin 2) * 41 + 41
    omega

/-- After region 2 its result array is `onehot(seg)ᵀ · x` of the two arrays the region finds: the 25 block sums
    accumulated from zero are the sum over all `50000` rows. -/
theorem array (c : Dev nD) :
    (dat2 (F := Ideal) V c).arrAt 2 cfg2.N = Spec.pool (V c main_v70) (V c main_v69) :=
  (dat2 (F := Ideal) V c).arrAt_eq_of_cover 2 (Spec.pool (segArr V c) (xArr V c)) (flushed_eq V c) fun i =>
    ⟨tLast, (flush2_2 tLast).mpr rfl, mem_last i⟩

end Final

end Cert.KernelIdeal.Pool

end
-- ==== Proof.PoolBridge.lean ====
/-
  The segment sum as a one-hot product against the reference's accumulating scatter.
-/
import proofs.«408785_j66949950210691_1_alg».proof.Proof.Gen.KernelIdeal.Frame
import proofs.«408785_j66949950210691_1_alg».proof.Proof.Spec
import proofs.«408785_j66949950210691_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen

/-- The reference's scatter record: operand `[512, 41]`, index column `[50000, 1]`, updates `[50000, 41]`; the
    index vector lies on axis 1, its one component names operand axis 0, operand axis 0 is inserted and the
    updates' axis 1 is the window axis. -/
abbrev dS : ScatterDims Cert.ReferenceIdeal.S512x41 Cert.ReferenceIdeal.S50000x1 Cert.ReferenceIdeal.S50000x41 :=
  Cert.ReferenceIdeal.scatter_S512x41_S50000x1_S50000x41_1_0_0_1

/-- On operand axis 0 the window of update `j` starts at the index word of `j`'s row, read signed. -/
theorem start_0 (j : Cert.ReferenceIdeal.S50000x41.Idx) (idx : IVec Cert.ReferenceIdeal.S50000x1 32) :
    dS.start j idx 0 = (idx (ix2 (j 0) (0 : Fin 1))).toInt := by
  unfold ScatterDims.start
  rw [dif_pos (by decide)]
  congr 2
  funext b
  match b with
  | ⟨0, _⟩ => rfl
  | ⟨1, _⟩ => rfl

/-- Operand axis 1 is not named by the index vector: the window starts at `0` there. -/
theorem start_1 (j : Cert.ReferenceIdeal.S50000x41.Idx) (idx : IVec Cert.ReferenceIdeal.S50000x1 32) :
    dS.start j idx 1 = 0 := by
  unfold ScatterDims.start
  rw [dif_neg (by decide)]

/-- Operand axis 0 is inserted: the window coordinate there is `0`. -/
theorem window_0 (j : Cert.ReferenceIdeal.S50000x41.Idx) : dS.window j 0 = 0 := by
  unfold ScatterDims.window
  rw [dif_neg (by decide)]

/-- On operand axis 1 the window coordinate is the update's column. -/
theorem window_1 (j : Cert.ReferenceIdeal.S50000x41.Idx) : dS.window j 1 = (j 1).val := by
  unfold ScatterDims.window
  rw [dif_pos (by decide)]
  rfl

/-- Update `(n, q')` lands on operand element `(g, q)` exactly when the index word of row `n`, read signed, is
    `g` and the columns agree; a word outside `[0, 512)` lands nowhere. -/
theorem resultIdx_iff (idx : IVec Cert.ReferenceIdeal.S50000x1 32) (n : Fin 50000) (q' : Fin 41) (g : Fin 512) (q : Fin 41) :
    dS.resultIdx? (ix2 n q') idx = some (ix2 g q) ↔ (idx (ix2 n (0 : Fin 1))).toInt = (g.val : Int) ∧ q' = q := by
  have hs0 : dS.start (ix2 n q') idx 0 = (idx (ix2 n (0 : Fin 1))).toInt := start_0 (ix2 n q') idx
  have hs1 := start_1 (ix2 n q') idx
  have hw0 := window_0 (ix2 n q')
  have hw1 : dS.window (ix2 n q') 1 = q'.val := window_1 (ix2 n q')
  have hg := g.isLt
  have hq := q.isLt
  have hq' := q'.isLt
  unfold ScatterDims.resultIdx?
  split
  · -- the window lies inside the operand: compare the landing index coordinate by coordinate
    rename_i h
    rw [Option.some.injEq]
    constructor
    · intro e
      have e0 : (dS.start (ix2 n q') idx 0 + (dS.window (ix2 n q') 0 : Nat)).toNat = g.val :=
        congrArg (fun f => (f 0).val) e
      have e1 : (dS.start (ix2 n q') idx 1 + (dS.window (ix2 n q') 1 : Nat)).toNat = q.val :=
        congrArg (fun f => (f 1).val) e
      have h0 := (h 0).1
      rw [hs0, hw0] at e0 h0
      rw [hs1, hw1] at e1
      refine ⟨by omega, Fin.ext (by omega)⟩
    · rintro ⟨ht, rfl⟩
      funext a
      match a with
      | ⟨0, _⟩ =>
        apply Fin.ext
        show (dS.start (ix2 n q') idx 0 + (dS.window (ix2 n q') 0 : Nat)).toNat = g.val
        rw [hs0, hw0]; omega
      | ⟨1, _⟩ =>
        apply Fin.ext
        show (dS.start (ix2 n q') idx 1 + (dS.window (ix2 n q') 1 : Nat)).toNat = q'.val
        rw [hs1, hw1]; omega
  · -- the window leaves the operand: then the word is not a row below 512
    rename_i h
    constructor
    · intro e; exact absurd e (by simp)
    · rintro ⟨ht, rfl⟩
      exfalso
      apply h
      intro a
      match a with
      | ⟨0, _⟩ =>
        show 0 ≤ dS.start (ix2 n q') idx 0 + (dS.window (ix2 n q') 0 : Nat) ∧
          dS.start (ix2 n q') idx 0 + (dS.window (ix2 n q') 0 : Nat) < ((512 : Nat) : Int)
        rw [hs0, hw0]; omega
      | ⟨1, _⟩ =>
        show 0 ≤ dS.start (ix2 n q') idx 1 + (dS.window (ix2 n q') 1 : Nat) ∧
          dS.start (ix2 n q') idx 1 + (dS.window (ix2 n q') 1 : Nat) < ((41 : Nat) : Int)
        rw [hs1, hw1]; omega

/-- A 32-bit word read signed is the natural `g < 512` exactly when it is the word of `g`. -/
theorem toInt_eq_iff (a : BitVec 32) (g : Nat) (hg : g < 512) : a.toInt = (g : Int) ↔ a = BitVec.ofNat 32 g := by
  constructor
  · intro h
    apply BitVec.eq_of_toInt_eq
    rw [h, StableHlo.Predicate.toInt_ofNat_small g (by omega)]
  · intro h
    rw [h, StableHlo.Predicate.toInt_ofNat_small g (by omega)]

/-- The sum of the rows whose segment word is `g` is what the reference's scatter-add leaves in row `g` of a zero
    array: an update lands on row `g` exactly when its index word, read signed, is `g`, and one outside
    `[0, 512)` lands nowhere, as no one-hot column matches it. -/
theorem bridge (x2 : IVec S50000 32) (y : FVec Ideal S50000x41 .f32) :
    Spec.pool (shapeCast S50000x1 x2 shapeCasts_S50000_S50000x1) y
    = Host.scatterAdd Cert.ReferenceIdeal.scatter_S512x41_S50000x1_S50000x41_1_0_0_1
        (broadcastInDim Cert.ReferenceIdeal.S512x41 ![] Cert.ReferenceIdeal.Gen.bcast_S_S512x41
          (constant (F := Ideal) Cert.ReferenceIdeal.S_ .f32 0x00000000#32))
        (broadcastInDim Cert.ReferenceIdeal.S50000x1 ![0] Cert.ReferenceIdeal.Gen.bcast_S50000_S50000x1_0 x2)
        y := by
  funext i
  obtain ⟨g, q, rfl⟩ : ∃ (g : Fin 512) (q : Fin 41), i = ix2 g q := ⟨i 0, i 1, eq_ix2 i⟩
  -- the vector as a column, by reshape and by broadcast, reads the vector at the row
  have hcast : ∀ n : Fin 50000, shapeCast S50000x1 x2 shapeCasts_S50000_S50000x1 (ix2 n (0 : Fin 1)) = x2 (ix1 n) := fun n =>
    shapeCast_apply x2 shapeCasts_S50000_S50000x1 (ix2 n (0 : Fin 1)) (ix1 n) (by
      rw [Shape.rowMajor_val_two, Shape.rowMajor_val_one]; show n.val = n.val * 1 + 0; omega)
  have hcol : ∀ n : Fin 50000, broadcastInDim Cert.ReferenceIdeal.S50000x1 ![0] Cert.ReferenceIdeal.Gen.bcast_S50000_S50000x1_0 x2
      (ix2 n (0 : Fin 1)) = x2 (ix1 n) := fun n =>
    broadcastInDim_apply ![0] Cert.ReferenceIdeal.Gen.bcast_S50000_S50000x1_0 x2 (ix2 n (0 : Fin 1)) (ix1 n) (by
      intro a
      match a with
      | ⟨0, _⟩ => rfl)
  rw [Spec.pool_ix2]
  unfold Spec.poolAt
  -- the scatter at (g, q): the zero entry plus the updates landing there, summed over rows then columns
  show _ = Ideal.hostScatterAdd dS _ _ y (ix2 g q)
  unfold Ideal.hostScatterAdd
  rw [Finset.sum_filter, sum_idx2]
  have hz : broadcastInDim Cert.ReferenceIdeal.S512x41 ![] Cert.ReferenceIdeal.Gen.bcast_S_S512x41
          (constant (F := Ideal) Cert.ReferenceIdeal.S_ .f32 0x00000000#32) (ix2 g q) = (0 : EReal) := by
    show Ideal.ofBits .f32 0x00000000#32 = 0
    exact Ideal.ofBits_zero_f32
  rw [hz, zero_add]
  -- row by row: the one-hot factor selects the row, the inner sum over columns keeps column q
  refine Finset.sum_congr rfl fun n _ => ?_
  rw [hcast n]
  simp only [resultIdx_iff, hcol n]
  unfold Spec.hot
  by_cases hA : (x2 (ix1 n)).toInt = (g.val : Int)
  · have hB := (toInt_eq_iff _ g.val g.isLt).1 hA
    rw [if_pos hB, one_mul]
    simp only [hA, true_and]
    rw [Finset.sum_ite_eq' Finset.univ q (fun q' => y (ix2 n q')), if_pos (Finset.mem_univ q)]
  · have hB : ¬ x2 (ix1 n) = BitVec.ofNat 32 g.val := fun h => hA ((toInt_eq_iff _ g.val g.isLt).2 h)
    rw [if_neg hB, zero_mul]
    simp only [hA, false_and, if_false, Finset.sum_const_zero]

end Cert.KernelIdeal.Pool

end
-- ==== Proof.KernelValue.lean ====
/-
  The kernel's result array, at the extended reals, as the reference's function of the arguments.

  Stage by stage along the kernel's program: region 0 leaves `onehot(x_ids) · table · W1`, which for indices inside
  the table is the reference's `table[x_ids] · W1`; the host operations aggregate it over the edges exactly as the
  reference does; region 1 leaves `max(agg + b1, 0) · W2`, the reference's second dense layer; the host operations
  aggregate again and add `b2`; region 2 leaves the one-hot segment sum, the reference's scatter-add over `batch`.
-/
import proofs.«408785_j66949950210691_1_alg».proof.Proof.ChainHost
import proofs.«408785_j66949950210691_1_alg».proof.Proof.EmbedArray
import proofs.«408785_j66949950210691_1_alg».proof.Proof.EmbedBridge
import proofs.«408785_j66949950210691_1_alg».proof.Proof.DenseArray
import proofs.«408785_j66949950210691_1_alg».proof.Proof.DenseBridge
import proofs.«408785_j66949950210691_1_alg».proof.Proof.PoolArray
import proofs.«408785_j66949950210691_1_alg».proof.Proof.PoolBridge

set_option maxRecDepth 16384

noncomputable section

namespace Cert.KernelIdeal.Result

open Cert.KernelIdeal Cert.KernelIdeal.Gen Cert.KernelIdeal.Chain
open Idealize.ShloMosaic Idealize.ShloMosaic.TcCoe Idealize.SL.Sem
open Cert.ReferenceIdeal.ReadP

variable (m : (ℓ : Loc nD τ sig) → Buf (Elt Ideal) ℓ) (ρ : Dev nD → PrngReg)

/-- Region 0's result is the reference's transformed features of layer 1, for indices inside the table. -/
theorem feat1 (c : Dev nD)
    (hx : ∀ n : S50000.Idx, 0 ≤ (m ((c.tc : Thread nD τ).loc main_arg0) n).toInt ∧ (m ((c.tc : Thread nD τ).loc main_arg0) n).toInt < 1340) :
    W4 m ρ c (Proc.devRef .tc main_v5)
    = val_main_v40 (F := Ideal) (m ((c.tc : Thread nD τ).loc main_arg0)) (m ((c.tc : Thread nD τ).loc main_arg3)) (m ((c.tc : Thread nD τ).loc main_arg4)) := by
  refine (W4_arr m ρ c 3).trans ?_
  rw [Embed.array (V3 m ρ) c]
  show Spec.embedDense (W3 m ρ c (Proc.devRef .tc main_v4)) (W3 m ρ c (Proc.devRef .tc main_v1)) (W3 m ρ c (Proc.devRef .tc main_v2)) = _
  rw [v3_ids, v3_tab, v3_w1]
  exact Embed.bridge _ _ _ hx

/-- Region 1's first operand is the reference's first aggregation. -/
theorem aggr1 (c : Dev nD)
    (hx : ∀ n : S50000.Idx, 0 ≤ (m ((c.tc : Thread nD τ).loc main_arg0) n).toInt ∧ (m ((c.tc : Thread nD τ).loc main_arg0) n).toInt < 1340) :
    W9 m ρ c (Proc.devRef .tc main_v51)
    = val_main_v53 (F := Ideal) (m ((c.tc : Thread nD τ).loc main_arg0)) (m ((c.tc : Thread nD τ).loc main_arg1)) (m ((c.tc : Thread nD τ).loc main_arg3)) (m ((c.tc : Thread nD τ).loc main_arg4)) := by
  rw [k_agg1, feat1 m ρ c hx, w4_arg m ρ c main_arg1 (.inl rfl), val53_eq]

/-- Region 1's result is the reference's transformed features of layer 2. -/
theorem feat2 (c : Dev nD)
    (hx : ∀ n : S50000.Idx, 0 ≤ (m ((c.tc : Thread nD τ).loc main_arg0) n).toInt ∧ (m ((c.tc : Thread nD τ).loc main_arg0) n).toInt < 1340) :
    W10 m ρ c (Proc.devRef .tc main_v53)
    = val_main_v84 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W10_arr m ρ c 3).trans ?_
  rw [Dense.array (V9 m ρ) c]
  show Spec.denseRelu (W9 m ρ c (Proc.devRef .tc main_v51)) (W9 m ρ c (Proc.devRef .tc main_v52)) (W9 m ρ c (Proc.devRef .tc main_v3)) = _
  rw [aggr1 m ρ c hx, k_bias, w4_arg m ρ c main_arg5 (.inr (.inr (.inl rfl))), w9_keep m ρ c main_v3 (.inl rfl), w4_w2]
  exact Dense.bridge _ _ _

/-- Region 2's second operand is the reference's second layer. -/
theorem layer2 (c : Dev nD)
    (hx : ∀ n : S50000.Idx, 0 ≤ (m ((c.tc : Thread nD τ).loc main_arg0) n).toInt ∧ (m ((c.tc : Thread nD τ).loc main_arg0) n).toInt < 1340) :
    W11 m ρ c (Proc.devRef .tc main_v69)
    = val_main_v100 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [k_conv2, feat2 m ρ c hx,
    W10_of_ne m ρ c main_v9 (by decide), k_src, W10_of_ne m ρ c main_v38 (by decide), k_norm,
    W10_of_ne m ρ c main_v12 (by decide), k_dst, w4_arg m ρ c main_arg1 (.inl rfl),
    W10_of_ne m ρ c main_arg7 (by decide), w9_keep m ρ c main_arg7 (.inr (.inr (.inr rfl))),
    w4_arg m ρ c main_arg7 (.inr (.inr (.inr rfl))), ← val83_eq, ← val100_eq]

/-- The kernel's result array is the reference's function of the arguments. -/
theorem result (c : Dev nD)
    (hx : ∀ n : S50000.Idx, 0 ≤ (m ((c.tc : Thread nD τ).loc main_arg0) n).toInt ∧ (m ((c.tc : Thread nD τ).loc main_arg0) n).toInt < 1340) :
    W12 m ρ c (Proc.devRef .tc main_v71)
    = val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 2).trans ?_
  rw [Pool.array (V11 m ρ) c]
  show Spec.pool (W11 m ρ c (Proc.devRef .tc main_v70)) (W11 m ρ c (Proc.devRef .tc main_v69)) = _
  rw [k_seg, layer2 m ρ c hx, W10_of_ne m ρ c main_arg2 (by decide), w9_keep m ρ c main_arg2 (.inr (.inr (.inl rfl))),
    w4_arg m ρ c main_arg2 (.inr (.inl rfl))]
  exact Pool.bridge _ _

end Cert.KernelIdeal.Result

end
-- ==== Proof.lean ====
/-
  The certificate of a two-layer graph convolution network with an embedding lookup in front and a segment-sum
  pooling behind, whose dense parts run as three kernels, against its reference written with gathers and scatter-adds.

  Over the extended reals both programs compute, for indices `x_ids` inside the embedding table,

    pool(batch, A · (max(A · (emb[x_ids] · W1) + b1, 0) · W2) + b2),

  where `A` is the normalised adjacency with self loops, applied as a gather along `src`, a scaling by
  `norm = dinv[src] · dinv[dst]` and a scatter-add along `dst`.  The kernel writes the lookup `emb[x_ids]` as the product
  of one-hot rows with the zero-padded table and the pooling as the product with the transposed one-hot matrix of
  `batch`; a one-hot row times the table is the table's row, and the one-hot pooling adds exactly the rows a
  scatter-add sends to a segment, an out-of-range segment word matching no column as the scatter drops it.  No law
  beyond `0 · x = 0`, `1 · x = x` and the commutative monoid of `+` on the extended reals is used, so the finiteness
  of the float inputs is never opened; the precondition is used only for `0 ≤ x_ids < 1340`, outside which the
  reference's lookup wraps or clamps while the one-hot row is zero.

  The frames of the two kernel programs and the reference's run are the generated ones; the kernel's run is stated
  once more with its result array named.  `preserves` is `True`: the ideal pass rewrote nothing.
-/
import proofs.«408785_j66949950210691_1_alg».proof.Defs
import proofs.«408785_j66949950210691_1_alg».proof.Proof.Gen.Kernel
import proofs.«408785_j66949950210691_1_alg».proof.Proof.Gen.Kernel.Frame
import proofs.«408785_j66949950210691_1_alg».proof.Proof.Gen.KernelIdeal
import proofs.«408785_j66949950210691_1_alg».proof.Proof.Gen.KernelIdeal.Frame
import proofs.«408785_j66949950210691_1_alg».proof.Proof.Gen.ReferenceIdeal
import proofs.«408785_j66949950210691_1_alg».proof.Proof.Gen.Pre_finite_inputs
import proofs.«408785_j66949950210691_1_alg».proof.Proof.KRun
import proofs.«408785_j66949950210691_1_alg».proof.Proof.RefRead
import proofs.«408785_j66949950210691_1_alg».proof.Proof.PreRange
import proofs.«408785_j66949950210691_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Where the precondition holds of the kernel's memory, every index word of `x_ids` lies in `[0, 1340)`. -/
theorem ids_in_range (m : (ℓ : Loc Cert.KernelIdeal.nD Cert.KernelIdeal.τ Cert.KernelIdeal.sig) → Buf (Elt Ideal) ℓ)
    (hpre : Cert.Pre_KernelIdeal m) (c : Dev Cert.KernelIdeal.nD) (n : Cert.KernelIdeal.S50000.Idx) :
    0 ≤ (m ((c.tc : Thread Cert.KernelIdeal.nD Cert.KernelIdeal.τ).loc Cert.KernelIdeal.main_arg0) n).toInt
      ∧ (m ((c.tc : Thread Cert.KernelIdeal.nD Cert.KernelIdeal.τ).loc Cert.KernelIdeal.main_arg0) n).toInt < 1340 :=
  Cert.Proof.PreRange.ids_in_range (F := Ideal) _ _ _ _ _ _ _ _ (hpre c) n

/-- Both idealized programs end with the reference's function of the arguments in their result arrays. -/
theorem algebraic : Cert.algebraic_KernelIdeal_ReferenceIdeal := by
  intro m ρ m' ρ' hpre hagree
  refine ⟨fun c => Cert.ReferenceIdeal.ReadP.val_main_v103 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result m ρ c (ids_in_range m hpre c)), (h c).2⟩)
      (Cert.KernelIdeal.RunNamed.run (F := Ideal) m ρ)
  · refine (θ_run Cert.ReferenceIdeal.defs _ _).mono (fun _ h c => ⟨?_, (h c).2⟩)
      (Cert.ReferenceIdeal.ValueP.run (F := Ideal) m' ρ')
    obtain ⟨e0, e1, e2, e3, e4, e5, e6, e7⟩ := hagree c
    rw [(h c).1, Cert.ReferenceIdeal.ReadP.val_main_v103_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
